-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x256x16x56x56 : Shape := ⟨5, ![4, 256, 16, 56, 56]⟩
abbrev S256x16x3x3 : Shape := ⟨4, ![256, 16, 3, 3]⟩
abbrev S_ : Shape := ⟨0, ![]⟩

class Facts : Prop where
  bcast_S_S4x256x16x56x56 : S_.BroadcastsInDim S4x256x16x56x56 (![] : Fin 0 → Fin S4x256x16x56x56.rank)
  reducesTo_S4x256x16x56x56_S_d0_1_2_3_4 : S4x256x16x56x56.ReducesTo [0, 1, 2, 3, 4] S_
  h_S_ : 0 < S_.numel
  bcast_S_S256x16x3x3 : S_.BroadcastsInDim S256x16x3x3 (![] : Fin 0 → Fin S256x16x3x3.rank)
  reducesTo_S256x16x3x3_S_d0_1_2_3 : S256x16x3x3.ReducesTo [0, 1, 2, 3] S_

variable [Facts]

def fn {F : FTy → Type} [FloatOps F] (main_arg0 : FVec F S4x256x16x56x56 .f32) (main_arg1 : FVec F S256x16x3x3 .f32) : IVec S_ 1 :=
  let main_v0 : FVec F S4x256x16x56x56 .f32 := Host.absf main_arg0
  let main_cst : FVec F S_ .f32 := constant S_ .f32 0x7F800000#32
  let main_v1 : FVec F S4x256x16x56x56 .f32 := broadcastInDim S4x256x16x56x56 ![] bcast_S_S4x256x16x56x56 main_cst
  let main_v2 : IVec S4x256x16x56x56 1 := cmpf .olt main_v0 main_v1
  let main_c : IVec S_ 1 := constantI S_ 1 1#1
  let main_v3 : IVec S_ 1 := (fun x v => Host.reduce IntOp.andi x v reducesTo_S4x256x16x56x56_S_d0_1_2_3_4 h_S_) main_v2 main_c
  let main_v4 : FVec F S256x16x3x3 .f32 := Host.absf main_arg1
  let main_cst_0 : FVec F S_ .f32 := constant S_ .f32 0x7F800000#32
  let main_v5 : FVec F S256x16x3x3 .f32 := broadcastInDim S256x16x3x3 ![] bcast_S_S256x16x3x3 main_cst_0
  let main_v6 : IVec S256x16x3x3 1 := cmpf .olt main_v4 main_v5
  let main_c_1 : IVec S_ 1 := constantI S_ 1 1#1
  let main_v7 : IVec S_ 1 := (fun x v => Host.reduce IntOp.andi x v reducesTo_S256x16x3x3_S_d0_1_2_3 h_S_) main_v6 main_c_1
  let main_v8 : IVec S_ 1 := andi main_v3 main_v7
  main_v8
-- ==== Kernel.lean ====
abbrev S4x256x16x56x56 : Shape := ⟨5, ![4, 256, 16, 56, 56]⟩
abbrev S256x16x3x3 : Shape := ⟨4, ![256, 16, 3, 3]⟩
abbrev S_ : Shape := ⟨0, ![]⟩
abbrev S4x256x16x58x58 : Shape := ⟨5, ![4, 256, 16, 58, 58]⟩
abbrev S4x72x16x56x56 : Shape := ⟨5, ![4, 72, 16, 56, 56]⟩
abbrev S1x256x1x58x58 : Shape := ⟨5, ![1, 256, 1, 58, 58]⟩
abbrev S256x1x3x3 : Shape := ⟨4, ![256, 1, 3, 3]⟩
abbrev S1x72x1x56x56 : Shape := ⟨5, ![1, 72, 1, 56, 56]⟩
abbrev S256x58x58 : Shape := ⟨3, ![256, 58, 58]⟩
abbrev S256x3x3 : Shape := ⟨3, ![256, 3, 3]⟩
abbrev S256x56x56 : Shape := ⟨3, ![256, 56, 56]⟩
abbrev S256x1x1 : Shape := ⟨3, ![256, 1, 1]⟩
abbrev S256 : Shape := ⟨1, ![256]⟩
abbrev S8x32x56x56 : Shape := ⟨4, ![8, 32, 56, 56]⟩
abbrev S8x56x56 : Shape := ⟨3, ![8, 56, 56]⟩
abbrev S1x8x56x56 : Shape := ⟨4, ![1, 8, 56, 56]⟩
abbrev S9x8x56x56 : Shape := ⟨4, ![9, 8, 56, 56]⟩
abbrev S8x9x56x56 : Shape := ⟨4, ![8, 9, 56, 56]⟩
abbrev S72x56x56 : Shape := ⟨3, ![72, 56, 56]⟩

abbrev nBuf : Space → Nat
  | .hbm => 6
  | .vmem => 8
  | .smem => 0
  | _ => 0

abbrev bufTy : (tb : Table) → Fin (tcTables nBuf tb) → BufTy
  | .hbm, ⟨0, _⟩ => ⟨S4x256x16x56x56, .f32⟩
  | .hbm, ⟨1, _⟩ => ⟨S256x16x3x3, .f32⟩
  | .hbm, ⟨2, _⟩ => ⟨S_, .i32⟩
  | .hbm, ⟨3, _⟩ => ⟨S_, .f32⟩
  | .hbm, ⟨4, _⟩ => ⟨S4x256x16x58x58, .f32⟩
  | .hbm, ⟨5, _⟩ => ⟨S4x72x16x56x56, .f32⟩
  | .local _ .vmem, ⟨0, _⟩ => ⟨S1x256x1x58x58, .f32⟩
  | .local _ .vmem, ⟨1, _⟩ => ⟨S1x256x1x58x58, .f32⟩
  | .local _ .vmem, ⟨2, _⟩ => ⟨S1x256x1x58x58, .f32⟩
  | .local _ .vmem, ⟨3, _⟩ => ⟨S1x256x1x58x58, .f32⟩
  | .local _ .vmem, ⟨4, _⟩ => ⟨S256x1x3x3, .f32⟩
  | .local _ .vmem, ⟨5, _⟩ => ⟨S256x1x3x3, .f32⟩
  | .local _ .vmem, ⟨6, _⟩ => ⟨S1x72x1x56x56, .f32⟩
  | .local _ .vmem, ⟨7, _⟩ => ⟨S1x72x1x56x56, .f32⟩
  | _, _ => ⟨S4x256x16x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_1 (i : grid0.Coords) : Fin 5 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  let c0_i32_3 : BitVec 32 := 0#32
  ![arg0.toNat, c0_i32_0.toNat, v1.toNat, c0_i32_1.toNat, c0_i32_2.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage0_0 : Fin 2 → Memref sig .tc .vmem S1x256x1x58x58 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1x58x58 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1x3x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x72x1x56x56 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  pads_S4x256x16x56x56_S4x256x16x58x58_000_000_000_110_110 : S4x256x16x56x56.Pads (![0, 0, 0, 1, 1] : Fin 5 → Nat) ![0, 0, 0, 1, 1] ![0, 0, 0, 0, 0] S4x256x16x58x58
  h_S_ : 0 < S_.numel
  inb_S1x256x1x58x58_S1x256x1x58x58_0_0_0_0_0 : ∀ a, (![0, 0, 0, 0, 0] : Fin 5 → Nat) a + S1x256x1x58x58.size a ≤ S1x256x1x58x58.size a
  h_S1x256x1x58x58 : 0 < S1x256x1x58x58.numel
  shapeCasts_S1x256x1x58x58_S256x58x58 : S1x256x1x58x58.ShapeCasts S256x58x58
  inb_S256x1x3x3_S256x1x3x3_0_0_0_0 : ∀ a, (![0, 0, 0, 0] : Fin 4 → Nat) a + S256x1x3x3.size a ≤ S256x1x3x3.size a
  h_S256x1x3x3 : 0 < S256x1x3x3.numel
  shapeCasts_S256x1x3x3_S256x3x3 : S256x1x3x3.ShapeCasts S256x3x3
  slices_S256x58x58_o0_1_1_S256x56x56 : S256x58x58.Slices ![0, 1, 1] S256x56x56
  slices_S256x58x58_o0_0_0_S256x56x56 : S256x58x58.Slices ![0, 0, 0] S256x56x56
  slices_S256x3x3_o0_0_0_S256x1x1 : S256x3x3.Slices ![0, 0, 0] S256x1x1
  shapeCasts_S256x1x1_S256 : S256x1x1.ShapeCasts S256
  shapeCasts_S256_S256x1x1 : S256.ShapeCasts S256x1x1
  broadcasts_S256x1x1_S256x56x56 : S256x1x1.Broadcasts S256x56x56
  shapeCasts_S256x56x56_S8x32x56x56 : S256x56x56.ShapeCasts S8x32x56x56
  reduces_S8x32x56x56_S8x56x56 : S8x32x56x56.Reduces [1] S8x56x56
  slices_S256x58x58_o0_0_1_S256x56x56 : S256x58x58.Slices ![0, 0, 1] S256x56x56
  slices_S256x3x3_o0_0_1_S256x1x1 : S256x3x3.Slices ![0, 0, 1] S256x1x1
  slices_S256x58x58_o0_0_2_S256x56x56 : S256x58x58.Slices ![0, 0, 2] S256x56x56
  slices_S256x3x3_o0_0_2_S256x1x1 : S256x3x3.Slices ![0, 0, 2] S256x1x1
  slices_S256x58x58_o0_1_0_S256x56x56 : S256x58x58.Slices ![0, 1, 0] S256x56x56
  slices_S256x3x3_o0_1_0_S256x1x1 : S256x3x3.Slices ![0, 1, 0] S256x1x1
  slices_S256x3x3_o0_1_1_S256x1x1 : S256x3x3.Slices ![0, 1, 1] S256x1x1
  slices_S256x58x58_o0_1_2_S256x56x56 : S256x58x58.Slices ![0, 1, 2] S256x56x56
  slices_S256x3x3_o0_1_2_S256x1x1 : S256x3x3.Slices ![0, 1, 2] S256x1x1
  slices_S256x58x58_o0_2_0_S256x56x56 : S256x58x58.Slices ![0, 2, 0] S256x56x56
  slices_S256x3x3_o0_2_0_S256x1x1 : S256x3x3.Slices ![0, 2, 0] S256x1x1
  slices_S256x58x58_o0_2_1_S256x56x56 : S256x58x58.Slices ![0, 2, 1] S256x56x56
  slices_S256x3x3_o0_2_1_S256x1x1 : S256x3x3.Slices ![0, 2, 1] S256x1x1
  slices_S256x58x58_o0_2_2_S256x56x56 : S256x58x58.Slices ![0, 2, 2] S256x56x56
  slices_S256x3x3_o0_2_2_S256x1x1 : S256x3x3.Slices ![0, 2, 2] S256x1x1
  shapeCasts_S8x56x56_S1x8x56x56 : S8x56x56.ShapeCasts S1x8x56x56
  concatenates_S1x8x56x56_S1x8x56x56_S1x8x56x56_S1x8x56x56_S1x8x56x56_S1x8x56x56_S1x8x56x56_S1x8x56x56_S1x8x56x56_S9x8x56x56_d0 : Shape.Concatenates [S1x8x56x56, S1x8x56x56, S1x8x56x56, S1x8x56x56, S1x8x56x56, S1x8x56x56, S1x8x56x56, S1x8x56x56, S1x8x56x56] S9x8x56x56 0
  transposes_S9x8x56x56_p1_0_2_3_S8x9x56x56 : S9x8x56x56.Transposes [1, 0, 2, 3] S8x9x56x56
  shapeCasts_S8x9x56x56_S72x56x56 : S8x9x56x56.ShapeCasts S72x56x56
  inb_S1x72x1x56x56_S1x72x1x56x56_0_0_0_0_0 : ∀ a, (![0, 0, 0, 0, 0] : Fin 5 → Nat) a + S1x72x1x56x56.size a ≤ S1x72x1x56x56.size a
  h_S1x72x1x56x56 : 0 < S1x72x1x56x56.numel
  shapeCasts_S1x72x1x56x56_S72x56x56 : S1x72x1x56x56.ShapeCasts S72x56x56
  shapeCasts_S72x56x56_S1x72x1x56x56 : S72x56x56.ShapeCasts S1x72x1x56x56
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1x58x58.size a ≤ S4x256x16x58x58.size a
  hwx0_0 : ∀ i : grid0.Coords, EltTy.bits .f32 = 32 ∨ (Rect.block (s := S4x256x16x58x58) S1x256x1x58x58.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x1x58x58.size a ≤ S4x256x16x58x58.size a
  hwx0_1 : ∀ i : grid0.Coords, EltTy.bits .f32 = 32 ∨ (Rect.block (s := S4x256x16x58x58) S1x256x1x58x58.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1x3x3.size a ≤ S256x16x3x3.size a
  hwx0_2 : ∀ i : grid0.Coords, EltTy.bits .f32 = 32 ∨ (Rect.block (s := S256x16x3x3) S256x1x3x3.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x72x1x56x56.size a ≤ S4x72x16x56x56.size a
  hwx0_3 : ∀ i : grid0.Coords, EltTy.bits .f32 = 32 ∨ (Rect.block (s := S4x72x16x56x56) S1x72x1x56x56.size (cc0_transform_3 i) (hinb0_3 i)).WholeWords (EltTy.packing .f32)

variable [Facts₀]

abbrev win0_0 : Pipeline.Window sig grid0 :=
  Pipeline.Window.ofSpec (Memref.whole main_v0) S1x256x1x58x58.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x256x1x58x58.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S256x1x3x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x72x1x56x56.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x256x16x56x56 : Shape := ⟨5, ![4, 256, 16, 56, 56]⟩
abbrev S256x16x3x3 : Shape := ⟨4, ![256, 16, 3, 3]⟩
abbrev S4x256x1x56x56 : Shape := ⟨5, ![4, 256, 1, 56, 56]⟩
abbrev S4x256x15x56x56 : Shape := ⟨5, ![4, 256, 15, 56, 56]⟩
abbrev S_ : Shape := ⟨0, ![]⟩
abbrev S4x256x16x58x58 : Shape := ⟨5, ![4, 256, 16, 58, 58]⟩
abbrev S256x16x1x1 : Shape := ⟨4, ![256, 16, 1, 1]⟩
abbrev S256x16 : Shape := ⟨2, ![256, 16]⟩
abbrev S1x256x16x1x1 : Shape := ⟨5, ![1, 256, 16, 1, 1]⟩
abbrev S4x8x32x16x56x56 : Shape := ⟨6, ![4, 8, 32, 16, 56, 56]⟩
abbrev S4x8x16x56x56 : Shape := ⟨5, ![4, 8, 16, 56, 56]⟩
abbrev S4x8x1x16x56x56 : Shape := ⟨6, ![4, 8, 1, 16, 56, 56]⟩
abbrev S4x8x9x16x56x56 : Shape := ⟨6, ![4, 8, 9, 16, 56, 56]⟩
abbrev S4x72x16x56x56 : Shape := ⟨5, ![4, 72, 16, 56, 56]⟩

abbrev nBuf : Space → Nat
  | .hbm => 109
  | .vmem => 0
  | .smem => 0
  | _ => 0

abbrev bufTy : (tb : Table) → Fin (tcTables nBuf tb) → BufTy
  | .hbm, ⟨0, _⟩ => ⟨S4x256x16x56x56, .f32⟩
  | .hbm, ⟨1, _⟩ => ⟨S256x16x3x3, .f32⟩
  | .hbm, ⟨2, _⟩ => ⟨S4x256x1x56x56, .f32⟩
  | .hbm, ⟨3, _⟩ => ⟨S4x256x15x56x56, .f32⟩
  | .hbm, ⟨4, _⟩ => ⟨S4x256x16x56x56, .f32⟩
  | .hbm, ⟨5, _⟩ => ⟨S_, .i32⟩
  | .hbm, ⟨6, _⟩ => ⟨S_, .f32⟩
  | .hbm, ⟨7, _⟩ => ⟨S4x256x16x58x58, .f32⟩
  | .hbm, ⟨8, _⟩ => ⟨S4x256x16x56x56, .f32⟩
  | .hbm, ⟨9, _⟩ => ⟨S256x16x1x1, .f32⟩
  | .hbm, ⟨10, _⟩ => ⟨S256x16, .f32⟩
  | .hbm, ⟨11, _⟩ => ⟨S4x256x16x56x56, .f32⟩
  | .hbm, ⟨12, _⟩ => ⟨S1x256x16x1x1, .f32⟩
  | .hbm, ⟨13, _⟩ => ⟨S4x256x16x56x56, .f32⟩
  | .hbm, ⟨14, _⟩ => ⟨S4x256x16x56x56, .f32⟩
  | .hbm, ⟨15, _⟩ => ⟨S4x8x32x16x56x56, .f32⟩
  | .hbm, ⟨16, _⟩ => ⟨S_, .f32⟩
  | .hbm, ⟨17, _⟩ => ⟨S4x8x16x56x56, .f32⟩
  | .hbm, ⟨18, _⟩ => ⟨S4x256x16x56x56, .f32⟩
  | .hbm, ⟨19, _⟩ => ⟨S256x16x1x1, .f32⟩
  | .hbm, ⟨20, _⟩ => ⟨S256x16, .f32⟩
  | .hbm, ⟨21, _⟩ => ⟨S4x256x16x56x56, .f32⟩
  | .hbm, ⟨22, _⟩ => ⟨S1x256x16x1x1, .f32⟩
  | .hbm, ⟨23, _⟩ => ⟨S4x256x16x56x56, .f32⟩
  | .hbm, ⟨24, _⟩ => ⟨S4x256x16x56x56, .f32⟩
  | .hbm, ⟨25, _⟩ => ⟨S4x8x32x16x56x56, .f32⟩
  | .hbm, ⟨26, _⟩ => ⟨S_, .f32⟩
  | .hbm, ⟨27, _⟩ => ⟨S4x8x16x56x56, .f32⟩
  | .hbm, ⟨28, _⟩ => ⟨S4x256x16x56x56, .f32⟩
  | .hbm, ⟨29, _⟩ => ⟨S256x16x1x1, .f32⟩
  | .hbm, ⟨30, _⟩ => ⟨S256x16, .f32⟩
  | .hbm, ⟨31, _⟩ => ⟨S4x256x16x56x56, .f32⟩
  | .hbm, ⟨32, _⟩ => ⟨S1x256x16x1x1, .f32⟩
  | .hbm, ⟨33, _⟩ => ⟨S4x256x16x56x56, .f32⟩
  | .hbm, ⟨34, _⟩ => ⟨S4x256x16x56x56, .f32⟩
  | .hbm, ⟨35, _⟩ => ⟨S4x8x32x16x56x56, .f32⟩
  | .hbm, ⟨36, _⟩ => ⟨S_, .f32⟩
  | .hbm, ⟨37, _⟩ => ⟨S4x8x16x56x56, .f32⟩
  | .hbm, ⟨38, _⟩ => ⟨S4x256x16x56x56, .f32⟩
  | .hbm, ⟨39, _⟩ => ⟨S256x16x1x1, .f32⟩
  | .hbm, ⟨40, _⟩ => ⟨S256x16, .f32⟩
  | .hbm, ⟨41, _⟩ => ⟨S4x256x16x56x56, .f32⟩
  | .hbm, ⟨42, _⟩ => ⟨S1x256x16x1x1, .f32⟩
  | .hbm, ⟨43, _⟩ => ⟨S4x256x16x56x56, .f32⟩
  | .hbm, ⟨44, _⟩ => ⟨S4x256x16x56x56, .f32⟩
  | .hbm, ⟨45, _⟩ => ⟨S4x8x32x16x56x56, .f32⟩
  | .hbm, ⟨46, _⟩ => ⟨S_, .f32⟩
  | .hbm, ⟨47, _⟩ => ⟨S4x8x16x56x56, .f32⟩
  | .hbm, ⟨48, _⟩ => ⟨S4x256x16x56x56, .f32⟩
  | .hbm, ⟨49, _⟩ => ⟨S256x16x1x1, .f32⟩
  | .hbm, ⟨50, _⟩ => ⟨S256x16, .f32⟩
  | .hbm, ⟨51, _⟩ => ⟨S4x256x16x56x56, .f32⟩
  | .hbm, ⟨52, _⟩ => ⟨S1x256x16x1x1, .f32⟩
  | .hbm, ⟨53, _⟩ => ⟨S4x256x16x56x56, .f32⟩
  | .hbm, ⟨54, _⟩ => ⟨S4x256x16x56x56, .f32⟩
  | .hbm, ⟨55, _⟩ => ⟨S4x8x32x16x56x56, .f32⟩
  | .hbm, ⟨56, _⟩ => ⟨S_, .f32⟩
  | .hbm, ⟨57, _⟩ => ⟨S4x8x16x56x56, .f32⟩
  | .hbm, ⟨58, _⟩ => ⟨S4x256x16x56x56, .f32⟩
  | .hbm, ⟨59, _⟩ => ⟨S256x16x1x1, .f32⟩
  | .hbm, ⟨60, _⟩ => ⟨S256x16, .f32⟩
  | .hbm, ⟨61, _⟩ => ⟨S4x256x16x56x56, .f32⟩
  | .hbm, ⟨62, _⟩ => ⟨S1x256x16x1x1, .f32⟩
  | .hbm, ⟨63, _⟩ => ⟨S4x256x16x56x56, .f32⟩
  | .hbm, ⟨64, _⟩ => ⟨S4x256x16x56x56, .f32⟩
  | .hbm, ⟨65, _⟩ => ⟨S4x8x32x16x56x56, .f32⟩
  | .hbm, ⟨66, _⟩ => ⟨S_, .f32⟩
  | .hbm, ⟨67, _⟩ => ⟨S4x8x16x56x56, .f32⟩
  | .hbm, ⟨68, _⟩ => ⟨S4x256x16x56x56, .f32⟩
  | .hbm, ⟨69, _⟩ => ⟨S256x16x1x1, .f32⟩
  | .hbm, ⟨70, _⟩ => ⟨S256x16, .f32⟩
  | .hbm, ⟨71, _⟩ => ⟨S4x256x16x56x56, .f32⟩
  | .hbm, ⟨72, _⟩ => ⟨S1x256x16x1x1, .f32⟩
  | .hbm, ⟨73, _⟩ => ⟨S4x256x16x56x56, .f32⟩
  | .hbm, ⟨74, _⟩ => ⟨S4x256x16x56x56, .f32⟩
  | .hbm, ⟨75, _⟩ => ⟨S4x8x32x16x56x56, .f32⟩
  | .hbm, ⟨76, _⟩ => ⟨S_, .f32⟩
  | .hbm, ⟨77, _⟩ => ⟨S4x8x16x56x56, .f32⟩
  | .hbm, ⟨78, _⟩ => ⟨S4x256x16x56x56, .f32⟩
  | .hbm, ⟨79, _⟩ => ⟨S256x16x1x1, .f32⟩
  | .hbm, ⟨80, _⟩ => ⟨S256x16, .f32⟩
  | .hbm, ⟨81, _⟩ => ⟨S4x256x16x56x56, .f32⟩
  | .hbm, ⟨82, _⟩ => ⟨S1x256x16x1x1, .f32⟩
  | .hbm, ⟨83, _⟩ => ⟨S4x256x16x56x56, .f32⟩
  | .hbm, ⟨84, _⟩ => ⟨S4x256x16x56x56, .f32⟩
  | .hbm, ⟨85, _⟩ => ⟨S4x8x32x16x56x56, .f32⟩
  | .hbm, ⟨86, _⟩ => ⟨S_, .f32⟩
  | .hbm, ⟨87, _⟩ => ⟨S4x8x16x56x56, .f32⟩
  | .hbm, ⟨88, _⟩ => ⟨S4x256x16x56x56, .f32⟩
  | .hbm, ⟨89, _⟩ => ⟨S256x16x1x1, .f32⟩
  | .hbm, ⟨90, _⟩ => ⟨S256x16, .f32⟩
  | .hbm, ⟨91, _⟩ => ⟨S4x256x16x56x56, .f32⟩
  | .hbm, ⟨92, _⟩ => ⟨S1x256x16x1x1, .f32⟩
  | .hbm, ⟨93, _⟩ => ⟨S4x256x16x56x56, .f32⟩
  | .hbm, ⟨94, _⟩ => ⟨S4x256x16x56x56, .f32⟩
  | .hbm, ⟨95, _⟩ => ⟨S4x8x32x16x56x56, .f32⟩
  | .hbm, ⟨96, _⟩ => ⟨S_, .f32⟩
  | .hbm, ⟨97, _⟩ => ⟨S4x8x16x56x56, .f32⟩
  | .hbm, ⟨98, _⟩ => ⟨S4x8x1x16x56x56, .f32⟩
  | .hbm, ⟨99, _⟩ => ⟨S4x8x1x16x56x56, .f32⟩
  | .hbm, ⟨100, _⟩ => ⟨S4x8x1x16x56x56, .f32⟩
  | .hbm, ⟨101, _⟩ => ⟨S4x8x1x16x56x56, .f32⟩
  | .hbm, ⟨102, _⟩ => ⟨S4x8x1x16x56x56, .f32⟩
  | .hbm, ⟨103, _⟩ => ⟨S4x8x1x16x56x56, .f32⟩
  | .hbm, ⟨104, _⟩ => ⟨S4x8x1x16x56x56, .f32⟩
  | .hbm, ⟨105, _⟩ => ⟨S4x8x1x16x56x56, .f32⟩
  | .hbm, ⟨106, _⟩ => ⟨S4x8x1x16x56x56, .f32⟩
  | .hbm, ⟨107, _⟩ => ⟨S4x8x9x16x56x56, .f32⟩
  | .hbm, ⟨108, _⟩ => ⟨S4x72x16x56x56, .f32⟩
  | _, _ => ⟨S4x256x16x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst_0 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_cst_1 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_cst_2 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_cst_3 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_cst_4 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_cst_5 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_cst_6 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_cst_7 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩

abbrev nD : Nat := 1
abbrev τ : Topo := Topo.v7x

variable {F : FTy → Type} [FloatOps F]

class Facts₀ : Prop where
  slices_S4x256x16x56x56_S4x256x1x56x56_0_0_0_0_0 : S4x256x16x56x56.Slices ![0, 0, 0, 0, 0] S4x256x1x56x56
  slices_S4x256x16x56x56_S4x256x15x56x56_0_0_0_0_0 : S4x256x16x56x56.Slices ![0, 0, 0, 0, 0] S4x256x15x56x56
  concatenates_S4x256x1x56x56_S4x256x15x56x56_S4x256x16x56x56_d2 : Shape.Concatenates [S4x256x1x56x56, S4x256x15x56x56] S4x256x16x56x56 2
  pads_S4x256x16x56x56_S4x256x16x58x58_000_000_000_110_110 : S4x256x16x56x56.Pads (![0, 0, 0, 1, 1] : Fin 5 → Nat) ![0, 0, 0, 1, 1] ![0, 0, 0, 0, 0] S4x256x16x58x58
  h_S_ : 0 < S_.numel
  slices_S4x256x16x58x58_S4x256x16x56x56_0_0_0_0_0 : S4x256x16x58x58.Slices ![0, 0, 0, 0, 0] S4x256x16x56x56
  slices_S256x16x3x3_S256x16x1x1_0_0_0_0 : S256x16x3x3.Slices ![0, 0, 0, 0] S256x16x1x1
  shapeCasts_S256x16x1x1_S256x16 : S256x16x1x1.ShapeCasts S256x16
  bcast_S256x16_S1x256x16x1x1_1_2 : S256x16.BroadcastsInDim S1x256x16x1x1 (![1, 2] : Fin 2 → Fin S1x256x16x1x1.rank)
  bcast_S1x256x16x1x1_S4x256x16x56x56_0_1_2_3_4 : S1x256x16x1x1.BroadcastsInDim S4x256x16x56x56 (![0, 1, 2, 3, 4] : Fin 5 → Fin S4x256x16x56x56.rank)
  shapeCasts_S4x256x16x56x56_S4x8x32x16x56x56 : S4x256x16x56x56.ShapeCasts S4x8x32x16x56x56
  reducesTo_S4x8x32x16x56x56_S4x8x16x56x56_d2 : S4x8x32x16x56x56.ReducesTo [2] S4x8x16x56x56
  slices_S4x256x16x58x58_S4x256x16x56x56_0_0_0_0_1 : S4x256x16x58x58.Slices ![0, 0, 0, 0, 1] S4x256x16x56x56
  slices_S256x16x3x3_S256x16x1x1_0_0_0_1 : S256x16x3x3.Slices ![0, 0, 0, 1] S256x16x1x1
  slices_S4x256x16x58x58_S4x256x16x56x56_0_0_0_0_2 : S4x256x16x58x58.Slices ![0, 0, 0, 0, 2] S4x256x16x56x56
  slices_S256x16x3x3_S256x16x1x1_0_0_0_2 : S256x16x3x3.Slices ![0, 0, 0, 2] S256x16x1x1
  slices_S4x256x16x58x58_S4x256x16x56x56_0_0_0_1_0 : S4x256x16x58x58.Slices ![0, 0, 0, 1, 0] S4x256x16x56x56
  slices_S256x16x3x3_S256x16x1x1_0_0_1_0 : S256x16x3x3.Slices ![0, 0, 1, 0] S256x16x1x1
  slices_S4x256x16x58x58_S4x256x16x56x56_0_0_0_1_1 : S4x256x16x58x58.Slices ![0, 0, 0, 1, 1] S4x256x16x56x56
  slices_S256x16x3x3_S256x16x1x1_0_0_1_1 : S256x16x3x3.Slices ![0, 0, 1, 1] S256x16x1x1
  slices_S4x256x16x58x58_S4x256x16x56x56_0_0_0_1_2 : S4x256x16x58x58.Slices ![0, 0, 0, 1, 2] S4x256x16x56x56
  slices_S256x16x3x3_S256x16x1x1_0_0_1_2 : S256x16x3x3.Slices ![0, 0, 1, 2] S256x16x1x1
  slices_S4x256x16x58x58_S4x256x16x56x56_0_0_0_2_0 : S4x256x16x58x58.Slices ![0, 0, 0, 2, 0] S4x256x16x56x56
  slices_S256x16x3x3_S256x16x1x1_0_0_2_0 : S256x16x3x3.Slices ![0, 0, 2, 0] S256x16x1x1
  slices_S4x256x16x58x58_S4x256x16x56x56_0_0_0_2_1 : S4x256x16x58x58.Slices ![0, 0, 0, 2, 1] S4x256x16x56x56
  slices_S256x16x3x3_S256x16x1x1_0_0_2_1 : S256x16x3x3.Slices ![0, 0, 2, 1] S256x16x1x1
  slices_S4x256x16x58x58_S4x256x16x56x56_0_0_0_2_2 : S4x256x16x58x58.Slices ![0, 0, 0, 2, 2] S4x256x16x56x56
  slices_S256x16x3x3_S256x16x1x1_0_0_2_2 : S256x16x3x3.Slices ![0, 0, 2, 2] S256x16x1x1
  bcast_S4x8x16x56x56_S4x8x1x16x56x56_0_1_3_4_5 : S4x8x16x56x56.BroadcastsInDim S4x8x1x16x56x56 (![0, 1, 3, 4, 5] : Fin 5 → Fin S4x8x1x16x56x56.rank)
  concatenates_S4x8x1x16x56x56_S4x8x1x16x56x56_S4x8x1x16x56x56_S4x8x1x16x56x56_S4x8x1x16x56x56_S4x8x1x16x56x56_S4x8x1x16x56x56_S4x8x1x16x56x56_S4x8x1x16x56x56_S4x8x9x16x56x56_d2 : Shape.Concatenates [S4x8x1x16x56x56, S4x8x1x16x56x56, S4x8x1x16x56x56, S4x8x1x16x56x56, S4x8x1x16x56x56, S4x8x1x16x56x56, S4x8x1x16x56x56, S4x8x1x16x56x56, S4x8x1x16x56x56] S4x8x9x16x56x56 2
  shapeCasts_S4x8x9x16x56x56_S4x72x16x56x56 : S4x8x9x16x56x56.ShapeCasts S4x72x16x56x56

variable [Facts₀]

class Facts : Prop extends Facts₀ where

variable [Facts]
-- ==== Proof.LibFrameShared.lean ====
/-
  The frame run of a TensorCore program with ONE kernel region whose INPUT windows may stage one array
  several times (one operand handed to the kernel through several in_specs, each with an index map of its own).

  Mathematically nothing changes against a region whose windows stage distinct arrays: an input window only ever
  READS its array, so two input windows on one array each hold a fraction of that array's points-to and read the
  same contents; an output window still holds its array whole. What changes is the bookkeeping at the region's
  entry: instead of "every window's array at the full share" the launch hands over the DISTINCT buffers behind
  the arrays, each whole at the full share, and the certificate says how those make the proof data's arrays at
  its shares (`hsplit`). The region invariant here is the scoped rest alone (the kernel's scratch, at some
  contents): the generator register is not handed to the body, so this form serves kernels that do not draw
  random bits. The conclusion is the library's `FramePost`: every window's array at `Dat.arrAt … N`, every
  unscoped buffer that is no window's array at its contents at the region's entry.
-/
import Idealize.ShloMosaic.Lib.Pipeline.Frame

noncomputable section

namespace Idealize.ShloMosaic

open Idealize.SL
open Idealize.SL.BI (sProp bigSep)
open scoped Idealize.SL.BI
open Idealize.SL.BI.BIBase Idealize.SL.BI.Laws Idealize.SL.Sem Idealize.SL.ProofMode
open Idealize.SL.RA
open TcCoe

set_option Elab.async false

variable {nD : Nat} {τ : Topo} {sig : RefSig} {Val : EltTy → Type}

namespace Pipeline

open PCS
open Idealize.ShloMosaic.Rounds

section SharedArrays

variable {Λ₀ : SL.Sem.Labels} {P : Type} [Fintype P] [DecidableEq P] [∀ e, Nonempty (Val e)]

local notation "𝕄" => MT nD τ sig Unit Val ℕ (UR sig nD τ) ℕ

variable (cfgs : P → Cfg sig Λ₀)
  (dats : (p : P) → (c : Dev nD) → Dat τ Val Unit ℕ (UR sig nD τ) ℕ (cfgs p) c) (p : P)
  (hinj : Function.Injective (cellOf (nD := nD) (τ := τ) cfgs)) (hw : WinFacts₀ (cfgs p).spec)
  (defs₀ : Defs nD τ sig Val Λ₀) (𝒱₀ : Variants)

local notation "cfg" => cfgs p
local notation "𝔻" => Pipeline.defs (fun q => Cfg.toPCfg (Val := Val) (cfgs q)) defs₀

include hinj hw in
/-- The frame run when input windows may share arrays: from the body obligation, the layout facts that do not
    mention the arrays' distinctness, @main up to the region (`hmain`, with the buffers' contents there, `V`), and
    the split of the buffers behind the arrays into the proof data's arrays at its shares (`hsplit`), every weakly
    fair execution of @main terminates in a state satisfying `FramePost`. The data's invariant is entered from the
    scoped rest (`hin`) and gives it back (`hout`). -/
theorem θ_run_frame_shared
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (hne : ∀ w : Fin (cfg).W, 0 < ((cfg).spec w).block.numel)
    (harr : ∀ w, ((cfg).spec w).arr.IsWhole) (hstage : ∀ w s, (((cfg).spec w).stage s).IsWhole)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfg).spec c (V c) : sProp 𝕄) ⊢ (dats p c).arrays ((dats p c).arrAt · 0))
    (hin : ∀ c, (scopedRest (cfg).spec c : sProp 𝕄) ⊢ (dats p c).Φ 0)
    (hout : ∀ c, (dats p c).Φ (Fin.last (cfg).N) ⊢ (scopedRest (cfg).spec c : sProp 𝕄)) :
    θ_run 𝔻 (onTc main) (s₀ m g) (FramePost cfgs dats p V) :=
  θ_run_region_noSem_shared cfgs dats () hinj p hw emb₁ defs₀ 𝒱₀ m g main hbody hne harr hstage howed
    (u₀ := initOf (cells cfgs hinj) (launchToks cfgs hinj)) (hu₀ := .rfl)
    V hmain hsplit
    (X := fun _ => iprop(emp)) (Y := fun _ => iprop(emp))
    (Z := fun c => unscopedRest (Ix := Unit) (Name := ℕ) (U := UR sig nD τ) (Lvl := ℕ) (cfg).spec c (V c))
    (hX := fun c => by
      iintro H
      isplitr
      · iempintro
      · iexact H)
    (hin := fun c => (show _ ⊢ (scopedRest (cfg).spec c : sProp 𝕄) from by iintro ⟨-, H⟩; iexact H).trans (hin c))
    (hout := fun c => (hout c).trans (by
      iintro H
      isplitr
      · iempintro
      · iexact H))
    (QY := fun c s => ∀ b ∈ restRefs sig (cfg).spec, s.mem ((c.tc : Thread nD τ).loc b) = V c b)
    (hY := fun c s' => by
      iintro ⟨-, HU, HSI⟩
      unfold unscopedRest
      imodintro
      iapply (pointsTo_read_all (restRefs sig (cfg).spec) (fun b => (c.tc : Thread nD τ).loc b) (V c) s')
      isplitl [HU] <;> iassumption)
    (hQ := fun s h c => ⟨(h c).1, (h c).2⟩)

end SharedArrays

end Pipeline

end Idealize.ShloMosaic

end
-- ==== Proof.KTerm.lean ====
/-
  The value the kernel body stores, as one pure term of the three blocks it loads: the current padded frame, the
  previous padded frame and the weight's time slice. For each of the nine stencil offsets the body multiplies the
  centre crop of the previous frame by the shifted crop of the current one and by the weight broadcast over the
  pixels, and sums each group of 32 channels; the nine [8, 56, 56] sums are stacked, transposed to group-major
  order and flattened to 72 channels.
-/
import proofs.«150480_j19069654794413_1_alg».proof.Proof.Gen.Kernel.Skeleton

noncomputable section

namespace Cert.Kernel.Hand

open Cert.Kernel Cert.Kernel.Gen
open Idealize.ShloMosaic Idealize.SL.Sem

variable {F : FTy → Type} [FloatOps F]

/-- The stored value from the loaded blocks `v0` (current frame), `v2` (previous frame), `v4` (weights). -/
def storedTerm (v0 v2 : Vec F S1x256x1x58x58 .f32) (v4 : Vec F S256x1x3x3 .f32) : FVec F S1x72x1x56x56 .f32 :=
  k0_pay1 (k0_pay9 (k0_pay2 v0) (k0_pay3 v4) (k0_pay4 v2)) (k0_pay10 (k0_pay2 v0) (k0_pay3 v4) (k0_pay4 v2))
    (k0_pay11 (k0_pay5 v0 v2 v4)) (k0_pay12 (k0_pay6 v0 v2 v4)) (k0_pay13 (k0_pay7 v0 v2 v4)) (k0_pay14 (k0_pay8 v0 v2 v4))
    (k0_pay15 (k0_pay2 v0) (k0_pay3 v4) (k0_pay4 v2)) (k0_pay16 (k0_pay2 v0) (k0_pay3 v4) (k0_pay4 v2)) (k0_pay17 (k0_pay2 v0) (k0_pay3 v4) (k0_pay4 v2))

end Cert.Kernel.Hand

end
-- ==== Proof.KBody.lean ====
/-
  The frame of the grouped shifted-product kernel: one pallas_call over the grid (n, t) ∈ 4 × 16 whose first two
  operands are the SAME array — the spatially zero-padded input, staged once as the current frame (index (n, t))
  and once as the previous frame (index (n, max (t − 1) 0)) — with the weight's time slice as third operand and
  one [72, 56, 56] output block per point.

  Written here: the contents of the TensorCore's buffers when the region is entered (`V`: the launch contents
  after the constant and the pad), each window's block at a point (`iblk`), the block the body stores as ONE pure
  term of the three blocks it loads (`outBlk`), the body's triple, the proof data (each input window keeps its
  block; the two windows on the padded array hold it at complementary half shares, which is all a reader needs),
  the split of the padded array's points-to between those two windows, the body obligation, and the run: every
  array the pipeline stages ends at what the library computes from the proof data, every other buffer unchanged.
-/
import proofs.«150480_j19069654794413_1_alg».proof.Proof.Gen.Kernel.Launch
import proofs.«150480_j19069654794413_1_alg».proof.Proof.Gen.Kernel.Skeleton
import proofs.«150480_j19069654794413_1_alg».proof.Proof.Gen.Kernel.Points
import proofs.«150480_j19069654794413_1_alg».proof.Proof.LibFrameShared
import proofs.«150480_j19069654794413_1_alg».proof.Proof.KTerm
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: the launch contents after the integer constant,
    its conversion to a float and the pad of the first argument. -/
abbrev V (c : Dev nD) (b : Ref sig .tc) : Buf (Elt F) ((c : Thread nD τ).loc b) :=
  StableHlo.after (List.flatten [hostOps0, hostOps0_1]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor

/-- @main up to the region: two stretches of host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1] (by simp only [List.Forall]; exact ⟨hostOps0_sub, hostOps0_1_sub⟩)
    (by simp only [List.Forall]; exact ⟨hostOps0_fresh, hostOps0_1_fresh⟩) main_chain

/-- No host operation before the region writes the first argument. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, Finset.mem_singleton]
    repeat' apply And.intro
    all_goals exact StableHlo.devRef_ne_of_ne (by decide)))
/-- Nor the second. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, whether the pipeline fetched it there
    or not (the previous-frame window is not fetched again at t = 1, where its index has not moved), for any
    proof data whose array is `V`'s and whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's accesses and what it stores -/

abbrev rIn : Rect S1x256x1x58x58 := Rect.unit (s := S1x256x1x58x58) ![0, 0, 0, 0, 0] S1x256x1x58x58.size inb_S1x256x1x58x58_S1x256x1x58x58_0_0_0_0_0
abbrev rWt : Rect S256x1x3x3 := Rect.unit (s := S256x1x3x3) ![0, 0, 0, 0] S256x1x3x3.size inb_S256x1x3x3_S256x1x3x3_0_0_0_0
abbrev rOut : Rect S1x72x1x56x56 := Rect.unit (s := S1x72x1x56x56) ![0, 0, 0, 0, 0] S1x72x1x56x56.size inb_S1x72x1x56x56_S1x72x1x56x56_0_0_0_0_0

/-- The output window's staging buffer after the body, from the input windows' blocks: its one store. -/
def outBlk (x0 x1 : Vec F S1x256x1x58x58 .f32) (x2 : Vec F S256x1x3x3 .f32) : Vec F S1x72x1x56x56 .f32 :=
  View.canon [⟨rOut, storedTerm (View.ld x0 rIn) (View.ld x1 rIn) (View.ld x2 rWt)⟩]

/-- The one store covers the buffer. -/
theorem coverOut (p0 : Vec F S1x72x1x56x56 .f32) (y : S1x72x1x56x56.Idx) :
    ∃ pc ∈ ([⟨rOut, p0⟩] : List (View.Piece (Elt F) S1x72x1x56x56 .f32)), y ∈ pc.1.set :=
  View.cover_of_tiled [⟨rOut, p0⟩] S1x72x1x56x56.size (by rfl) y

/-! ## The body's triple -/

set_option maxHeartbeats 1000000 in
/-- The kernel body on whole staging memrefs, the three inputs' at contents `x0`, `x1`, `x2` and the output's at
    anything, runs to the continuation holding the inputs' as they were and the output's at `outBlk x0 x1 x2`. -/
theorem sound_kernel (c : Dev nD) (E : Set ℕ) (i : grid0.Coords) (arg2 : Memref sig .tc .vmem S1x256x1x58x58 .f32) (harg2 : arg2.IsWhole)
    (arg3 : Memref sig .tc .vmem S1x256x1x58x58 .f32) (harg3 : arg3.IsWhole) (arg4 : Memref sig .tc .vmem S256x1x3x3 .f32) (harg4 : arg4.IsWhole)
    (arg5 : Memref sig .tc .vmem S1x72x1x56x56 .f32) (harg5 : arg5.IsWhole)
    (x0 x1 : Vec F S1x256x1x58x58 .f32) (x2 : Vec F S256x1x3x3 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (outBlk x0 x1 x2)) -∗ K ⟨⟩))
      ⊢ wp frame (wpE (defs₀ (F := F)) Variants.none c none) E (cc0__tc_kernel i arg2 harg2 arg3 harg3 arg4 harg4 arg5 harg5) K := by
  simp only [cc0__tc_kernel_eq_skeleton]; unfold cc0__tc_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (coverOut _)

end Cert.Kernel.Hand

end
-- ==== Proof.KFrame.lean ====
/-
  The proof data, the body obligation and the run of the grouped shifted-product kernel's one region, over the
  body's triple: each input window keeps its block, the output window ends each point at the stored block; the two
  windows that read the padded input hold complementary halves of its points-to; every array the pipeline stages
  ends at what the library computes from the proof data, every other buffer as the region found it.
-/
import proofs.«150480_j19069654794413_1_alg».proof.Proof.KBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The proof data of the one pipeline on core `c`: the arrays as the region finds them; after the body at point
    `t` each input window's buffer at its block and the output's at `outBlk` of the three input blocks; the
    invariant the core's scratch (none is named); nothing owed. The padded input is read through two windows: each
    holds HALF of its points-to (the left and the right half of the full share), the weight's window and the
    output's hold theirs whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlk (iblk m c 0 t) (iblk m c 1 t) (iblk m c 2 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | _ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = outBlk (iblk m c 0 t) (iblk m c 1 t) (iblk m c 2 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d

/-! ## The padded array's points-to, split between its two readers -/

/-- The distinct buffers behind the four windows' arrays: the padded input, the weight, the result. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v0) ↦{fullShare} W main_v0) ∗ (((c : Thread nD τ).loc main_arg1) ↦{fullShare} W main_arg1)
          ∗ (((c : Thread nD τ).loc main_v1) ↦{fullShare} W main_v1)) := by
  unfold Pipeline.arrBufs
  exact bigSep_eq_bigSepL_of_eq [main_v0, main_arg1, main_v1] (by decide) (by decide) _

/-- At the region's entry the buffers behind the arrays, each whole, make the proof data's arrays at its shares:
    the padded input's points-to is cut into its two halves, one per window that reads it. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq]
  unfold Dat.arrays
  rw [bigSep_W0]
  have e0 : (dats m 0 c).share 0 = fullShare.left := by unfold Dat.share; rfl
  have e1 : (dats m 0 c).share 1 = fullShare.right := by unfold Dat.share; rfl
  have e2 : (dats m 0 c).share 2 = fullShare := by unfold Dat.share; rfl
  have e3 : (dats m 0 c).share 3 = fullShare := by unfold Dat.share; rfl
  rw [e0, e1, e2, e3, (arr_whole0 0).set_eq_univ, (arr_whole0 2).set_eq_univ, (arr_whole0 3).set_eq_univ]
  iintro ⟨H0, H2, H3⟩
  ihave H0 := (pointsTo_share (PosShare.mem_left_op_right fullShare)).1 $$ H0
  icases H0 with ⟨Ha, Hb⟩
  isplitl [Ha]; · iexact Ha
  isplitl [Hb]; · iexact Hb
  isplitl [H2]; · iexact H2
  iexact H3

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' memrefs hold their blocks, so the body's triple applies; the invariant and
    the core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3]
  iintro ⟨HΦ, Ho, ⟨%d0, H0⟩, ⟨%d1, H1⟩, ⟨%d2, H2⟩, ⟨%d3, H3⟩⟩
  iapply (sound_kernel c Set.univ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has
    each array of the pipeline at what the library computes from the proof data and every other unscoped buffer as
    the region found it. -/
theorem run_main : θ_run defs (onTc (τ := τ) (main (F := F))) (s₀ m ρ) (Pipeline.FramePost cfgs (dats m) 0 (V m)) :=
  Pipeline.θ_run_frame_shared cfgs (dats m) (0 : Fin 1) cellOf_inj winFacts₀0 defs₀ Variants.none m ρ main
    (hbody := fun c => (body_obligation m c).loose) (hne := block_pos0) (harr := arr_whole0) (hstage := stage_whole0)
    (howed := fun _ _ => rfl) (V := V m) (hmain := hmain m Variants.none) (hsplit := hsplit m)
    (hin := fun _ => .rfl) (hout := fun _ => .rfl)

/-- The frame: the program runs, and both argument arrays end as launched — the first is staged by no window and
    no host operation writes it; the second is an input window's array, which the pipeline only reads. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 (Pipeline.mem_restRefs_of main_arg0 (by decide) (by decide))).trans (V_main_arg0 m c),
      ((h c).1 2).trans (((dats m 0 c).arrAt_in 2 rfl _).trans ((A_eq m c 2).trans (V_main_arg1 m c)))⟩) (run_main m ρ)

end Cert.Kernel.Hand

end
-- ==== Proof.KITerm.lean ====
/-
  The value the kernel body stores, as one pure term of the three blocks it loads: the current padded frame, the
  previous padded frame and the weight's time slice. For each of the nine stencil offsets the body multiplies the
  centre crop of the previous frame by the shifted crop of the current one and by the weight broadcast over the
  pixels, and sums each group of 32 channels; the nine [8, 56, 56] sums are stacked, transposed to group-major
  order and flattened to 72 channels.
-/
import proofs.«150480_j19069654794413_1_alg».proof.Proof.Gen.KernelIdeal.Skeleton

noncomputable section

namespace Cert.KernelIdeal.Hand

open Cert.KernelIdeal Cert.KernelIdeal.Gen
open Idealize.ShloMosaic Idealize.SL.Sem

variable {F : FTy → Type} [FloatOps F]

/-- The stored value from the loaded blocks `v0` (current frame), `v2` (previous frame), `v4` (weights). -/
def storedTerm (v0 v2 : Vec F S1x256x1x58x58 .f32) (v4 : Vec F S256x1x3x3 .f32) : FVec F S1x72x1x56x56 .f32 :=
  k0_pay1 (k0_pay9 (k0_pay2 v0) (k0_pay3 v4) (k0_pay4 v2)) (k0_pay10 (k0_pay2 v0) (k0_pay3 v4) (k0_pay4 v2))
    (k0_pay11 (k0_pay5 v0 v2 v4)) (k0_pay12 (k0_pay6 v0 v2 v4)) (k0_pay13 (k0_pay7 v0 v2 v4)) (k0_pay14 (k0_pay8 v0 v2 v4))
    (k0_pay15 (k0_pay2 v0) (k0_pay3 v4) (k0_pay4 v2)) (k0_pay16 (k0_pay2 v0) (k0_pay3 v4) (k0_pay4 v2)) (k0_pay17 (k0_pay2 v0) (k0_pay3 v4) (k0_pay4 v2))

end Cert.KernelIdeal.Hand

end
-- ==== Proof.KIBody.lean ====
/-
  The frame of the grouped shifted-product kernel: one pallas_call over the grid (n, t) ∈ 4 × 16 whose first two
  operands are the SAME array — the spatially zero-padded input, staged once as the current frame (index (n, t))
  and once as the previous frame (index (n, max (t − 1) 0)) — with the weight's time slice as third operand and
  one [72, 56, 56] output block per point.

  Written here: the contents of the TensorCore's buffers when the region is entered (`V`: the launch contents
  after the constant and the pad), each window's block at a point (`iblk`), the block the body stores as ONE pure
  term of the three blocks it loads (`outBlk`), the body's triple, the proof data (each input window keeps its
  block; the two windows on the padded array hold it at complementary half shares, which is all a reader needs),
  the split of the padded array's points-to between those two windows, the body obligation, and the run: every
  array the pipeline stages ends at what the library computes from the proof data, every other buffer unchanged.
-/
import proofs.«150480_j19069654794413_1_alg».proof.Proof.Gen.KernelIdeal.Launch
import proofs.«150480_j19069654794413_1_alg».proof.Proof.Gen.KernelIdeal.Skeleton
import proofs.«150480_j19069654794413_1_alg».proof.Proof.Gen.KernelIdeal.Points
import proofs.«150480_j19069654794413_1_alg».proof.Proof.LibFrameShared
import proofs.«150480_j19069654794413_1_alg».proof.Proof.KITerm
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: the launch contents after the integer constant,
    its conversion to a float and the pad of the first argument. -/
abbrev V (c : Dev nD) (b : Ref sig .tc) : Buf (Elt F) ((c : Thread nD τ).loc b) :=
  StableHlo.after (List.flatten [hostOps0, hostOps0_1]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor

/-- @main up to the region: two stretches of host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1] (by simp only [List.Forall]; exact ⟨hostOps0_sub, hostOps0_1_sub⟩)
    (by simp only [List.Forall]; exact ⟨hostOps0_fresh, hostOps0_1_fresh⟩) main_chain

/-- No host operation before the region writes the first argument. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, Finset.mem_singleton]
    repeat' apply And.intro
    all_goals exact StableHlo.devRef_ne_of_ne (by decide)))
/-- Nor the second. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, whether the pipeline fetched it there
    or not (the previous-frame window is not fetched again at t = 1, where its index has not moved), for any
    proof data whose array is `V`'s and whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's accesses and what it stores -/

abbrev rIn : Rect S1x256x1x58x58 := Rect.unit (s := S1x256x1x58x58) ![0, 0, 0, 0, 0] S1x256x1x58x58.size inb_S1x256x1x58x58_S1x256x1x58x58_0_0_0_0_0
abbrev rWt : Rect S256x1x3x3 := Rect.unit (s := S256x1x3x3) ![0, 0, 0, 0] S256x1x3x3.size inb_S256x1x3x3_S256x1x3x3_0_0_0_0
abbrev rOut : Rect S1x72x1x56x56 := Rect.unit (s := S1x72x1x56x56) ![0, 0, 0, 0, 0] S1x72x1x56x56.size inb_S1x72x1x56x56_S1x72x1x56x56_0_0_0_0_0

/-- The output window's staging buffer after the body, from the input windows' blocks: its one store. -/
def outBlk (x0 x1 : Vec F S1x256x1x58x58 .f32) (x2 : Vec F S256x1x3x3 .f32) : Vec F S1x72x1x56x56 .f32 :=
  View.canon [⟨rOut, storedTerm (View.ld x0 rIn) (View.ld x1 rIn) (View.ld x2 rWt)⟩]

/-- The one store covers the buffer. -/
theorem coverOut (p0 : Vec F S1x72x1x56x56 .f32) (y : S1x72x1x56x56.Idx) :
    ∃ pc ∈ ([⟨rOut, p0⟩] : List (View.Piece (Elt F) S1x72x1x56x56 .f32)), y ∈ pc.1.set :=
  View.cover_of_tiled [⟨rOut, p0⟩] S1x72x1x56x56.size (by rfl) y

/-! ## The body's triple -/

set_option maxHeartbeats 1000000 in
/-- The kernel body on whole staging memrefs, the three inputs' at contents `x0`, `x1`, `x2` and the output's at
    anything, runs to the continuation holding the inputs' as they were and the output's at `outBlk x0 x1 x2`. -/
theorem sound_kernel (c : Dev nD) (E : Set ℕ) (i : grid0.Coords) (arg2 : Memref sig .tc .vmem S1x256x1x58x58 .f32) (harg2 : arg2.IsWhole)
    (arg3 : Memref sig .tc .vmem S1x256x1x58x58 .f32) (harg3 : arg3.IsWhole) (arg4 : Memref sig .tc .vmem S256x1x3x3 .f32) (harg4 : arg4.IsWhole)
    (arg5 : Memref sig .tc .vmem S1x72x1x56x56 .f32) (harg5 : arg5.IsWhole)
    (x0 x1 : Vec F S1x256x1x58x58 .f32) (x2 : Vec F S256x1x3x3 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (outBlk x0 x1 x2)) -∗ K ⟨⟩))
      ⊢ wp frame (wpE (defs₀ (F := F)) Variants.none c none) E (cc0__tc_kernel i arg2 harg2 arg3 harg3 arg4 harg4 arg5 harg5) K := by
  simp only [cc0__tc_kernel_eq_skeleton]; unfold cc0__tc_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (coverOut _)

end Cert.KernelIdeal.Hand

end
-- ==== Proof.KIFrame.lean ====
/-
  The proof data, the body obligation and the run of the grouped shifted-product kernel's one region, over the
  body's triple: each input window keeps its block, the output window ends each point at the stored block; the two
  windows that read the padded input hold complementary halves of its points-to; every array the pipeline stages
  ends at what the library computes from the proof data, every other buffer as the region found it.
-/
import proofs.«150480_j19069654794413_1_alg».proof.Proof.KIBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The proof data of the one pipeline on core `c`: the arrays as the region finds them; after the body at point
    `t` each input window's buffer at its block and the output's at `outBlk` of the three input blocks; the
    invariant the core's scratch (none is named); nothing owed. The padded input is read through two windows: each
    holds HALF of its points-to (the left and the right half of the full share), the weight's window and the
    output's hold theirs whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlk (iblk m c 0 t) (iblk m c 1 t) (iblk m c 2 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | _ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = outBlk (iblk m c 0 t) (iblk m c 1 t) (iblk m c 2 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d

/-! ## The padded array's points-to, split between its two readers -/

/-- The distinct buffers behind the four windows' arrays: the padded input, the weight, the result. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v0) ↦{fullShare} W main_v0) ∗ (((c : Thread nD τ).loc main_arg1) ↦{fullShare} W main_arg1)
          ∗ (((c : Thread nD τ).loc main_v1) ↦{fullShare} W main_v1)) := by
  unfold Pipeline.arrBufs
  exact bigSep_eq_bigSepL_of_eq [main_v0, main_arg1, main_v1] (by decide) (by decide) _

/-- At the region's entry the buffers behind the arrays, each whole, make the proof data's arrays at its shares:
    the padded input's points-to is cut into its two halves, one per window that reads it. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq]
  unfold Dat.arrays
  rw [bigSep_W0]
  have e0 : (dats m 0 c).share 0 = fullShare.left := by unfold Dat.share; rfl
  have e1 : (dats m 0 c).share 1 = fullShare.right := by unfold Dat.share; rfl
  have e2 : (dats m 0 c).share 2 = fullShare := by unfold Dat.share; rfl
  have e3 : (dats m 0 c).share 3 = fullShare := by unfold Dat.share; rfl
  rw [e0, e1, e2, e3, (arr_whole0 0).set_eq_univ, (arr_whole0 2).set_eq_univ, (arr_whole0 3).set_eq_univ]
  iintro ⟨H0, H2, H3⟩
  ihave H0 := (pointsTo_share (PosShare.mem_left_op_right fullShare)).1 $$ H0
  icases H0 with ⟨Ha, Hb⟩
  isplitl [Ha]; · iexact Ha
  isplitl [Hb]; · iexact Hb
  isplitl [H2]; · iexact H2
  iexact H3

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' memrefs hold their blocks, so the body's triple applies; the invariant and
    the core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3]
  iintro ⟨HΦ, Ho, ⟨%d0, H0⟩, ⟨%d1, H1⟩, ⟨%d2, H2⟩, ⟨%d3, H3⟩⟩
  iapply (sound_kernel c Set.univ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has
    each array of the pipeline at what the library computes from the proof data and every other unscoped buffer as
    the region found it. -/
theorem run_main : θ_run defs (onTc (τ := τ) (main (F := F))) (s₀ m ρ) (Pipeline.FramePost cfgs (dats m) 0 (V m)) :=
  Pipeline.θ_run_frame_shared cfgs (dats m) (0 : Fin 1) cellOf_inj winFacts₀0 defs₀ Variants.none m ρ main
    (hbody := fun c => (body_obligation m c).loose) (hne := block_pos0) (harr := arr_whole0) (hstage := stage_whole0)
    (howed := fun _ _ => rfl) (V := V m) (hmain := hmain m Variants.none) (hsplit := hsplit m)
    (hin := fun _ => .rfl) (hout := fun _ => .rfl)

/-- The frame: the program runs, and both argument arrays end as launched — the first is staged by no window and
    no host operation writes it; the second is an input window's array, which the pipeline only reads. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 (Pipeline.mem_restRefs_of main_arg0 (by decide) (by decide))).trans (V_main_arg0 m c),
      ((h c).1 2).trans (((dats m 0 c).arrAt_in 2 rfl _).trans ((A_eq m c 2).trans (V_main_arg1 m c)))⟩) (run_main m ρ)

end Cert.KernelIdeal.Hand

end
-- ==== Proof.Spec.lean ====
/-
  The mathematics both programs compute, stated once, at coordinates.

  For a batch entry n, a group g of 32 consecutive channels, a stencil offset (kh, kw) ∈ 3 × 3, a time step t and a
  pixel (h, v), the result at output channel 9·g + 3·kh + kw is the sum over the group's channels c = 32·g + j of

      (x[n, c, t − 1, h, v] · P[n, c, t, h + kh, v + kw]) · w[c, t, kh, kw]

  where t − 1 is truncated at 0 (the previous frame, the first frame being its own predecessor) and P is the input
  with one ring of padding around each frame, so that P[…, h + kh, v + kw] is the input at the pixel shifted by
  (kh − 1, kw − 1). The sum starts from the float zero, as both programs' reductions do. Nothing here needs the
  summands to be finite: the two programs add the SAME 32 products, each associated the same way, and addition on
  the extended reals is commutative and associative.
-/
import Idealize.ShloMosaic.PureOps.Ideal
import Idealize.ShloMosaic.Lib.ValueIdx
import Idealize.ShloMosaic.Lib.KernelVsHost

noncomputable section

open scoped BigOperators

namespace Cert.Spec

open Idealize.ShloMosaic Idealize.ShloMosaic.ValueIdx

abbrev SX : Shape := ⟨5, ![4, 256, 16, 56, 56]⟩
abbrev SP : Shape := ⟨5, ![4, 256, 16, 58, 58]⟩
abbrev SW : Shape := ⟨4, ![256, 16, 3, 3]⟩
abbrev SO : Shape := ⟨5, ![4, 72, 16, 56, 56]⟩

/-- Channel j of group g. -/
def chan (g : Fin 8) (j : Fin 32) : Fin 256 := ⟨32 * g.val + j.val, by have := g.isLt; have := j.isLt; omega⟩
/-- The output channel of group g at stencil offset (kh, kw). -/
def outChan (g : Fin 8) (kh kw : Fin 3) : Fin 72 := ⟨9 * g.val + (3 * kh.val + kw.val), by have := g.isLt; have := kh.isLt; have := kw.isLt; omega⟩
/-- The previous time step, the first being its own predecessor. -/
def prevT (t : Fin 16) : Fin 16 := ⟨t.val - 1, by have := t.isLt; omega⟩
/-- A pixel coordinate shifted by a stencil offset, inside the padded frame. -/
def shift (h : Fin 56) (k : Fin 3) : Fin 58 := ⟨h.val + k.val, by have := h.isLt; have := k.isLt; omega⟩

@[simp] theorem chan_val (g : Fin 8) (j : Fin 32) : (chan g j).val = 32 * g.val + j.val := rfl
@[simp] theorem outChan_val (g : Fin 8) (kh kw : Fin 3) : (outChan g kh kw).val = 9 * g.val + (3 * kh.val + kw.val) := rfl
@[simp] theorem prevT_val (t : Fin 16) : (prevT t).val = t.val - 1 := rfl
@[simp] theorem shift_val (h : Fin 56) (k : Fin 3) : (shift h k).val = h.val + k.val := rfl

/-- Every output channel is some group's at some stencil offset. -/
theorem exists_outChan (ch : Fin 72) : ∃ (g : Fin 8) (kh kw : Fin 3), ch = outChan g kh kw := by
  have hc := ch.isLt
  refine ⟨⟨ch.val / 9, by omega⟩, ⟨(ch.val % 9) / 3, by omega⟩, ⟨(ch.val % 9) % 3, by omega⟩, Fin.ext ?_⟩
  simp only [outChan_val]
  omega

/-- The group sum at coordinates. -/
def Gsum (x : FVec Ideal SX .f32) (P : FVec Ideal SP .f32) (w : FVec Ideal SW .f32)
    (n : Fin 4) (g : Fin 8) (kh kw : Fin 3) (t : Fin 16) (h v : Fin 56) : EReal :=
  Ideal.ofBits .f32 0x00000000#32
    + ∑ j : Fin 32, (x (ix5 n (chan g j) (prevT t) h v) * P (ix5 n (chan g j) t (shift h kh) (shift v kw))) * w (ix4 (chan g j) t kh kw)

/-- The whole result array: at every index the group sum at the index's coordinates, the output channel split into
    its group and its stencil offset. -/
def Gfun (x : FVec Ideal SX .f32) (P : FVec Ideal SP .f32) (w : FVec Ideal SW .f32) : FVec Ideal SO .f32 := fun i =>
  Gsum x P w ⟨(i 0).val, (i 0).isLt⟩
    ⟨(i 1).val / 9, by have h : (i 1).val < 72 := (i 1).isLt; omega⟩
    ⟨(i 1).val % 9 / 3, by omega⟩ ⟨(i 1).val % 9 % 3, by omega⟩
    ⟨(i 2).val, (i 2).isLt⟩ ⟨(i 3).val, (i 3).isLt⟩ ⟨(i 4).val, (i 4).isLt⟩

theorem Gfun_apply (x : FVec Ideal SX .f32) (P : FVec Ideal SP .f32) (w : FVec Ideal SW .f32)
    (n : Fin 4) (g : Fin 8) (kh kw : Fin 3) (t : Fin 16) (h v : Fin 56) :
    Gfun x P w (ix5 n (outChan g kh kw) t h v) = Gsum x P w n g kh kw t h v := by
  have hg := g.isLt; have hkh := kh.isLt; have hkw := kw.isLt
  unfold Gfun
  show Gsum x P w ⟨n.val, _⟩ ⟨(outChan g kh kw).val / 9, _⟩ ⟨(outChan g kh kw).val % 9 / 3, _⟩ ⟨(outChan g kh kw).val % 9 % 3, _⟩
    ⟨t.val, _⟩ ⟨h.val, _⟩ ⟨v.val, _⟩ = _
  congr 1 <;> apply Fin.ext <;> simp only [outChan_val] <;> omega

/-- The value the frames are padded with: the integer zero converted to a float. -/
def zeroPad : FVec Ideal (⟨0, ![]⟩ : Shape) .f32 := sitofp (F := Ideal) .f32 (constantI (⟨0, ![]⟩ : Shape) 32 0#32)

/-- The input with one ring of padding around each frame. -/
def padded (x : FVec Ideal SX .f32) : FVec Ideal SP .f32 :=
  pad SP ![0, 0, 0, 1, 1] ![0, 0, 0, 1, 1] ![0, 0, 0, 0, 0] x zeroPad

/-- Inside the ring the padded input is the input: the padded pixel (h + 1, v + 1) is the pixel (h, v). -/
theorem padded_inside (x : FVec Ideal SX .f32) (n : Fin 4) (c : Fin 256) (t : Fin 16) (h v : Fin 56) :
    padded x (ix5 n c t (shift h 1) (shift v 1)) = x (ix5 n c t h v) := by
  unfold padded
  refine pad_apply_of_inside _ _ _ x zeroPad _ _ _ (ix5 n c t h v) fun a => ?_
  match a with
  | ⟨0, _⟩ => show n.val = 0 + n.val * (0 + 1); omega
  | ⟨1, _⟩ => show c.val = 0 + c.val * (0 + 1); omega
  | ⟨2, _⟩ => show t.val = 0 + t.val * (0 + 1); omega
  | ⟨3, _⟩ => show h.val + 1 = 1 + h.val * (0 + 1); omega
  | ⟨4, _⟩ => show v.val + 1 = 1 + v.val * (0 + 1); omega

end Cert.Spec

end
-- ==== Proof.KIBlock.lean ====
/-
  The value the kernel body stores, read at one index, on the extended reals (every operation exact).

  The body loads the current padded frame block C = [1, 256, 1, 58, 58], the previous padded frame block
  Q = [1, 256, 1, 58, 58] and the weight slice W = [256, 1, 3, 3]. For a stencil offset (kh, kw) ∈ 3 × 3 it forms, at
  channel c and pixel (h, v), the product

      (Q[0, c, 0, h + 1, v + 1] · C[0, c, 0, h + kh, v + kw]) · W[c, 0, kh, kw]

  (the centre crop of the previous frame, the crop of the current frame shifted by the offset, the weight entry
  broadcast over the pixels), regroups the 256 channels as 8 groups of 32 consecutive ones, c = 32·g + j, and sums each
  group over j, starting from the float zero. The nine [8, 56, 56] arrays of group sums, in the order k = 3·kh + kw, are
  stacked to [9, 8, 56, 56], transposed to [8, 9, 56, 56] and flattened to 72 channels, so that output channel 9·g + k
  holds group g's sum at offset k. Read at output channel 9·g + 3·kh + kw and pixel (h, v), the stored value is
  therefore the float zero plus the sum over j : Fin 32 of the product above at c = 32·g + j.
-/
import proofs.«150480_j19069654794413_1_alg».proof.Proof.KITerm
import proofs.«150480_j19069654794413_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Hand

open Cert.KernelIdeal Cert.KernelIdeal.Gen Cert.Spec Idealize.ShloMosaic Idealize.ShloMosaic.ValueIdx

/-! ## The layout operations of one stencil offset, each read at an index -/

section Layout
variable {α : Type}

/-- A padded frame block without its two unit axes: entry (c, y, x) is the block's entry (0, c, 0, y, x). -/
theorem frame_apply (X : S1x256x1x58x58.Idx → α) (c : Fin 256) (y x : Fin 58) :
    shapeCast S256x58x58 X shapeCasts_S1x256x1x58x58_S256x58x58 (ix3 c y x) = X (ix5 (0 : Fin 1) c (0 : Fin 1) y x) :=
  shapeCast_apply X _ _ _ (by
    rw [Shape.rowMajor_val_five, Shape.rowMajor_val_three]
    show (((0 * 256 + c.val) * 1 + 0) * 58 + y.val) * 58 + x.val = (c.val * 58 + y.val) * 58 + x.val
    omega)

/-- A 56 × 56 crop of the 58 × 58 frames from the corner (a, b): entry (c, h, v) is the frame's entry
    (c, a + h, b + v). -/
theorem crop_apply (X : S256x58x58.Idx → α) (a b : Nat) (hs : S256x58x58.Slices ![0, a, b] S256x56x56)
    (c : Fin 256) (h v : Fin 56) (y x : Fin 58) (hy : y.val = a + h.val) (hx : x.val = b + v.val) :
    extractStridedSlice S256x56x56 ![0, a, b] X hs (ix3 c h v) = X (ix3 c y x) :=
  extractStridedSlice_apply _ X hs _ _ fun ax => match ax with
    | ⟨0, _⟩ => (Nat.zero_add _).symm
    | ⟨1, _⟩ => hy
    | ⟨2, _⟩ => hx

/-- The weight slice without its unit axis, cut to its entry (a, b) of the 3 × 3 stencil and broadcast over the pixels:
    entry (c, h, v) is the weight's entry (c, 0, a, b). -/
theorem weight_apply (W : S256x1x3x3.Idx → α) (a b : Nat) (kh kw : Fin 3) (ha : kh.val = a) (hb : kw.val = b)
    (hw : S256x3x3.Slices ![0, a, b] S256x1x1) (c : Fin 256) (h v : Fin 56) :
    broadcastTo S256x56x56
        (shapeCast S256x1x1
          (shapeCast S256 (extractStridedSlice S256x1x1 ![0, a, b] (shapeCast S256x3x3 W shapeCasts_S256x1x3x3_S256x3x3) hw)
            shapeCasts_S256x1x1_S256)
          shapeCasts_S256_S256x1x1)
        broadcasts_S256x1x1_S256x56x56 (ix3 c h v)
      = W (ix4 c (0 : Fin 1) kh kw) := by
  refine (broadcastTo_apply _ broadcasts_S256x1x1_S256x56x56 (ix3 c h v) (ix3 c (0 : Fin 1) (0 : Fin 1)) fun ax => ?_).trans ?_
  · match ax with
    | ⟨0, _⟩ => show c.val = if (256 : Nat) = 1 then 0 else c.val; rw [if_neg (by decide)]
    | ⟨1, _⟩ => show 0 = if (1 : Nat) = 1 then 0 else h.val; rw [if_pos rfl]
    | ⟨2, _⟩ => show 0 = if (1 : Nat) = 1 then 0 else v.val; rw [if_pos rfl]
  refine (shapeCast_apply _ shapeCasts_S256_S256x1x1 (ix3 c (0 : Fin 1) (0 : Fin 1)) (ix1 c) ?_).trans ?_
  · rw [Shape.rowMajor_val_one, Shape.rowMajor_val_three]
    show c.val = (c.val * 1 + 0) * 1 + 0
    omega
  refine (shapeCast_apply _ shapeCasts_S256x1x1_S256 (ix1 c) (ix3 c (0 : Fin 1) (0 : Fin 1)) ?_).trans ?_
  · rw [Shape.rowMajor_val_three, Shape.rowMajor_val_one]
    show (c.val * 1 + 0) * 1 + 0 = c.val
    omega
  refine (extractStridedSlice_apply _ _ hw (ix3 c (0 : Fin 1) (0 : Fin 1)) (ix3 c kh kw) fun ax => ?_).trans ?_
  · match ax with
    | ⟨0, _⟩ => show c.val = 0 + c.val; omega
    | ⟨1, _⟩ => show kh.val = a + 0; omega
    | ⟨2, _⟩ => show kw.val = b + 0; omega
  exact shapeCast_apply W shapeCasts_S256x1x3x3_S256x3x3 (ix3 c kh kw) (ix4 c (0 : Fin 1) kh kw) (by
    rw [Shape.rowMajor_val_four, Shape.rowMajor_val_three]
    show ((c.val * 1 + 0) * 3 + kh.val) * 3 + kw.val = (c.val * 3 + kh.val) * 3 + kw.val
    omega)

/-- The 256 channels regrouped as 8 groups of 32: entry (g, j, h, v) is the entry (32·g + j, h, v). -/
theorem group_apply (X : S256x56x56.Idx → α) (g : Fin 8) (j : Fin 32) (h v : Fin 56) :
    shapeCast S8x32x56x56 X shapeCasts_S256x56x56_S8x32x56x56 (ix4 g j h v) = X (ix3 (chan g j) h v) :=
  shapeCast_apply X _ _ _ (by
    rw [Shape.rowMajor_val_three, Shape.rowMajor_val_four]
    show ((32 * g.val + j.val) * 56 + h.val) * 56 + v.val = ((g.val * 32 + j.val) * 56 + h.val) * 56 + v.val
    omega)

end Layout

/-! ## The three factors at an index -/

/-- The centre crop of the previous frame. -/
theorem prev_apply (v2 : Vec Ideal S1x256x1x58x58 .f32) (c : Fin 256) (h v : Fin 56) :
    k0_pay4 v2 (ix3 c h v) = v2 (ix5 (0 : Fin 1) c (0 : Fin 1) (shift h 1) (shift v 1)) :=
  (crop_apply _ 1 1 slices_S256x58x58_o0_1_1_S256x56x56 c h v (shift h 1) (shift v 1)
    (by show h.val + 1 = 1 + h.val; omega) (by show v.val + 1 = 1 + v.val; omega)).trans (frame_apply v2 c _ _)

/-- The crop of the current frame shifted by the stencil offset. -/
theorem cur_apply (v0 : Vec Ideal S1x256x1x58x58 .f32) (a b : Nat) (kh kw : Fin 3) (ha : kh.val = a) (hb : kw.val = b)
    (hs : S256x58x58.Slices ![0, a, b] S256x56x56) (c : Fin 256) (h v : Fin 56) :
    extractStridedSlice S256x56x56 ![0, a, b] (k0_pay2 v0) hs (ix3 c h v)
      = v0 (ix5 (0 : Fin 1) c (0 : Fin 1) (shift h kh) (shift v kw)) :=
  (crop_apply _ a b hs c h v (shift h kh) (shift v kw)
    (by rw [shift_val]; omega) (by rw [shift_val]; omega)).trans (frame_apply v0 c _ _)

/-- The weight entry of the stencil offset, broadcast over the pixels. -/
theorem wt_apply (v4 : Vec Ideal S256x1x3x3 .f32) (a b : Nat) (kh kw : Fin 3) (ha : kh.val = a) (hb : kw.val = b)
    (hw : S256x3x3.Slices ![0, a, b] S256x1x1) (c : Fin 256) (h v : Fin 56) :
    broadcastTo S256x56x56
        (shapeCast S256x1x1
          (shapeCast S256 (extractStridedSlice S256x1x1 ![0, a, b] (k0_pay3 v4) hw) shapeCasts_S256x1x1_S256)
          shapeCasts_S256_S256x1x1)
        broadcasts_S256x1x1_S256x56x56 (ix3 c h v)
      = v4 (ix4 c (0 : Fin 1) kh kw) :=
  weight_apply v4 a b kh kw ha hb hw c h v

/-! ## One stencil offset's group sums -/

/-- The group sums at the stencil offset (a, b), as the body writes them: the three factors multiplied, the channels
    regrouped, each group summed. -/
abbrev groupSum (v0 v2 : Vec Ideal S1x256x1x58x58 .f32) (v4 : Vec Ideal S256x1x3x3 .f32) (a b : Nat)
    (hs : S256x58x58.Slices ![0, a, b] S256x56x56) (hw : S256x3x3.Slices ![0, a, b] S256x1x1) : FVec Ideal S8x56x56 .f32 :=
  multiReduction (F := Ideal) .add [1] S8x56x56
    (shapeCast S8x32x56x56
      (mulf (mulf (k0_pay4 v2) (extractStridedSlice S256x56x56 ![0, a, b] (k0_pay2 v0) hs))
        (broadcastTo S256x56x56
          (shapeCast S256x1x1
            (shapeCast S256 (extractStridedSlice S256x1x1 ![0, a, b] (k0_pay3 v4) hw) shapeCasts_S256x1x1_S256)
            shapeCasts_S256_S256x1x1)
          broadcasts_S256x1x1_S256x56x56))
      shapeCasts_S256x56x56_S8x32x56x56)
    0x00000000#32 reduces_S8x32x56x56_S8x56x56 (.inl rfl) rfl

/-- Group g's sum at pixel (h, v): the float zero plus the 32 products of the group's channels. -/
theorem groupSum_apply (v0 v2 : Vec Ideal S1x256x1x58x58 .f32) (v4 : Vec Ideal S256x1x3x3 .f32) (a b : Nat)
    (kh kw : Fin 3) (ha : kh.val = a) (hb : kw.val = b)
    (hs : S256x58x58.Slices ![0, a, b] S256x56x56) (hw : S256x3x3.Slices ![0, a, b] S256x1x1)
    (g : Fin 8) (h v : Fin 56) :
    groupSum v0 v2 v4 a b hs hw (ix3 g h v)
      = Ideal.ofBits .f32 0x00000000#32
        + ∑ j : Fin 32, (v2 (ix5 (0 : Fin 1) (chan g j) (0 : Fin 1) (shift h 1) (shift v 1))
                          * v0 (ix5 (0 : Fin 1) (chan g j) (0 : Fin 1) (shift h kh) (shift v kw)))
                        * v4 (ix4 (chan g j) (0 : Fin 1) kh kw) := by
  refine (Ideal.multiReduction_add_single (s := S8x32x56x56) (t := S8x56x56) (a := 1) _ 0x00000000#32
    reduces_S8x32x56x56_S8x56x56 (.inl rfl) rfl (ix3 g h v)).trans ?_
  rw [Ideal.ofBits_zero_f32, zero_add]
  refine Finset.sum_congr rfl fun (j : Fin 32) _ => ?_
  have hl : reduces_S8x32x56x56_S8x56x56.lift (ix3 g h v) j = ix4 g j h v :=
    funext fun c => Fin.ext (by
      match c with
      | ⟨0, _⟩ => rfl
      | ⟨1, _⟩ => rfl
      | ⟨2, _⟩ => rfl
      | ⟨3, _⟩ => rfl)
  rw [hl, group_apply, mulf_apply, mulf_apply, prev_apply, cur_apply v0 a b kh kw ha hb, wt_apply v4 a b kh kw ha hb]

/-- The same array with a leading unit axis, as it enters the stack. -/
theorem piece_apply (v0 v2 : Vec Ideal S1x256x1x58x58 .f32) (v4 : Vec Ideal S256x1x3x3 .f32) (a b : Nat)
    (kh kw : Fin 3) (ha : kh.val = a) (hb : kw.val = b)
    (hs : S256x58x58.Slices ![0, a, b] S256x56x56) (hw : S256x3x3.Slices ![0, a, b] S256x1x1)
    (g : Fin 8) (h v : Fin 56) :
    shapeCast S1x8x56x56 (groupSum v0 v2 v4 a b hs hw) shapeCasts_S8x56x56_S1x8x56x56 (ix4 (0 : Fin 1) g h v)
      = Ideal.ofBits .f32 0x00000000#32
        + ∑ j : Fin 32, (v2 (ix5 (0 : Fin 1) (chan g j) (0 : Fin 1) (shift h 1) (shift v 1))
                          * v0 (ix5 (0 : Fin 1) (chan g j) (0 : Fin 1) (shift h kh) (shift v kw)))
                        * v4 (ix4 (chan g j) (0 : Fin 1) kh kw) :=
  (shapeCast_abc_1abc_apply _ shapeCasts_S8x56x56_S1x8x56x56 (0 : Fin 1) g h v).trans
    (groupSum_apply v0 v2 v4 a b kh kw ha hb hs hw g h v)

/-! ## The stack of the nine offsets, transposed and flattened -/

/-- The stored array at output channel 9·g + k, k = 3·kh + kw, and pixel (h, v) is the k-th of the nine stacked arrays
    at (0, g, h, v): the two reshapes keep the row-major position, the transpose swaps the stack axis with the group
    axis, and the stack's k-th unit slab is its k-th piece. -/
theorem pay1_apply (v78 v87 : FVec Ideal S8x56x56 .f32) (v88 v89 v90 v91 v92 v93 v94 : FVec Ideal S1x8x56x56 .f32)
    (g : Fin 8) (kh kw : Fin 3) (h v : Fin 56) (k : Nat) (hk : k < 9) (hkv : k = 3 * kh.val + kw.val)
    (x₁ : FVec Ideal S1x8x56x56 .f32)
    (hx : ([⟨S1x8x56x56, v88⟩, ⟨S1x8x56x56, v89⟩, ⟨S1x8x56x56, v90⟩, ⟨S1x8x56x56, v91⟩, ⟨S1x8x56x56, v92⟩, ⟨S1x8x56x56, v93⟩, ⟨S1x8x56x56, v94⟩, ⟨S1x8x56x56, shapeCast S1x8x56x56 v78 shapeCasts_S8x56x56_S1x8x56x56⟩, ⟨S1x8x56x56, shapeCast S1x8x56x56 v87 shapeCasts_S8x56x56_S1x8x56x56⟩]
        : List ((s : Shape) × (s.Idx → Ideal .f32)))[k]'hk = ⟨S1x8x56x56, x₁⟩) :
    k0_pay1 v78 v87 v88 v89 v90 v91 v92 v93 v94 (ix5 (0 : Fin 1) (outChan g kh kw) (0 : Fin 1) h v)
      = x₁ (ix4 (0 : Fin 1) g h v) := by
  show shapeCast S1x72x1x56x56
      (shapeCast S72x56x56
        (transpose S8x9x56x56 [1, 0, 2, 3]
          (concatenate S9x8x56x56 0
            [⟨S1x8x56x56, v88⟩, ⟨S1x8x56x56, v89⟩, ⟨S1x8x56x56, v90⟩, ⟨S1x8x56x56, v91⟩, ⟨S1x8x56x56, v92⟩, ⟨S1x8x56x56, v93⟩, ⟨S1x8x56x56, v94⟩, ⟨S1x8x56x56, shapeCast S1x8x56x56 v78 shapeCasts_S8x56x56_S1x8x56x56⟩, ⟨S1x8x56x56, shapeCast S1x8x56x56 v87 shapeCasts_S8x56x56_S1x8x56x56⟩]
            concatenates_S1x8x56x56_S1x8x56x56_S1x8x56x56_S1x8x56x56_S1x8x56x56_S1x8x56x56_S1x8x56x56_S1x8x56x56_S1x8x56x56_S9x8x56x56_d0)
          transposes_S9x8x56x56_p1_0_2_3_S8x9x56x56)
        shapeCasts_S8x9x56x56_S72x56x56)
      shapeCasts_S72x56x56_S1x72x1x56x56 (ix5 (0 : Fin 1) (outChan g kh kw) (0 : Fin 1) h v) = _
  refine (shapeCast_apply _ shapeCasts_S72x56x56_S1x72x1x56x56 _ (ix3 (outChan g kh kw) h v) ?_).trans ?_
  · rw [Shape.rowMajor_val_three, Shape.rowMajor_val_five]
    show ((9 * g.val + (3 * kh.val + kw.val)) * 56 + h.val) * 56 + v.val
      = (((0 * 72 + (9 * g.val + (3 * kh.val + kw.val))) * 1 + 0) * 56 + h.val) * 56 + v.val
    omega
  refine (shapeCast_apply _ shapeCasts_S8x9x56x56_S72x56x56 _ (ix4 g (⟨k, hk⟩ : Fin 9) h v) ?_).trans ?_
  · rw [Shape.rowMajor_val_four, Shape.rowMajor_val_three]
    show ((g.val * 9 + k) * 56 + h.val) * 56 + v.val
      = ((9 * g.val + (3 * kh.val + kw.val)) * 56 + h.val) * 56 + v.val
    omega
  refine (transpose_apply _ _ transposes_S9x8x56x56_p1_0_2_3_S8x9x56x56 _ (ix4 (⟨k, hk⟩ : Fin 9) g h v) fun b => ?_).trans ?_
  · match b with
    | ⟨0, _⟩ => rfl
    | ⟨1, _⟩ => rfl
    | ⟨2, _⟩ => rfl
    | ⟨3, _⟩ => rfl
  have hpre : (((([⟨S1x8x56x56, v88⟩, ⟨S1x8x56x56, v89⟩, ⟨S1x8x56x56, v90⟩, ⟨S1x8x56x56, v91⟩, ⟨S1x8x56x56, v92⟩, ⟨S1x8x56x56, v93⟩, ⟨S1x8x56x56, v94⟩, ⟨S1x8x56x56, shapeCast S1x8x56x56 v78 shapeCasts_S8x56x56_S1x8x56x56⟩, ⟨S1x8x56x56, shapeCast S1x8x56x56 v87 shapeCasts_S8x56x56_S1x8x56x56⟩]
        : List ((s : Shape) × (s.Idx → Ideal .f32))).take k).map (·.1)).map fun s =>
          if h : s.rank = S9x8x56x56.rank then s.size ((0 : Fin S9x8x56x56.rank).cast h.symm) else 0).sum = k := by
    clear hx hkv
    interval_cases k <;> rfl
  refine concatenate_apply_piece (t := S9x8x56x56) (0 : Fin S9x8x56x56.rank) _ _ _ k ?hk S1x8x56x56 x₁ ?hx rfl k ?hpre
    (ix4 (0 : Fin 1) g h v) ?hi ?ha
  case hk => exact hk
  case hx => exact hx
  case hpre => exact hpre
  case hi =>
    intro b hb
    match b with
    | ⟨0, _⟩ => exact absurd rfl hb
    | ⟨1, _⟩ => rfl
    | ⟨2, _⟩ => rfl
    | ⟨3, _⟩ => rfl
  case ha => exact Nat.add_zero k

/-! ## The stored value at an index -/

/-- The stored block at output channel 9·g + 3·kh + kw and pixel (h, v): the float zero plus the sum over the group's 32
    channels of (previous frame at the pixel) · (current frame at the pixel shifted by the offset) · (weight at the
    offset). -/
theorem storedTerm_apply (v0 v2 : Vec Ideal S1x256x1x58x58 .f32) (v4 : Vec Ideal S256x1x3x3 .f32)
    (g : Fin 8) (kh kw : Fin 3) (h v : Fin 56) :
    storedTerm (F := Ideal) v0 v2 v4 (ix5 (0 : Fin 1) (outChan g kh kw) (0 : Fin 1) h v)
      = Ideal.ofBits .f32 0x00000000#32
        + ∑ j : Fin 32, (v2 (ix5 (0 : Fin 1) (chan g j) (0 : Fin 1) (shift h 1) (shift v 1))
                          * v0 (ix5 (0 : Fin 1) (chan g j) (0 : Fin 1) (shift h kh) (shift v kw)))
                        * v4 (ix4 (chan g j) (0 : Fin 1) kh kw) := by
  unfold storedTerm
  obtain ⟨kh, hkh⟩ := kh
  obtain ⟨kw, hkw⟩ := kw
  interval_cases kh <;> interval_cases kw
  · exact (pay1_apply _ _ _ _ _ _ _ _ _ g ⟨0, hkh⟩ ⟨0, hkw⟩ h v 0 (by decide) rfl _ rfl).trans
      (piece_apply v0 v2 v4 0 0 ⟨0, hkh⟩ ⟨0, hkw⟩ rfl rfl _ _ g h v)
  · exact (pay1_apply _ _ _ _ _ _ _ _ _ g ⟨0, hkh⟩ ⟨1, hkw⟩ h v 1 (by decide) rfl _ rfl).trans
      (piece_apply v0 v2 v4 0 1 ⟨0, hkh⟩ ⟨1, hkw⟩ rfl rfl _ _ g h v)
  · exact (pay1_apply _ _ _ _ _ _ _ _ _ g ⟨0, hkh⟩ ⟨2, hkw⟩ h v 2 (by decide) rfl _ rfl).trans
      (piece_apply v0 v2 v4 0 2 ⟨0, hkh⟩ ⟨2, hkw⟩ rfl rfl _ _ g h v)
  · exact (pay1_apply _ _ _ _ _ _ _ _ _ g ⟨1, hkh⟩ ⟨0, hkw⟩ h v 3 (by decide) rfl _ rfl).trans
      (piece_apply v0 v2 v4 1 0 ⟨1, hkh⟩ ⟨0, hkw⟩ rfl rfl _ _ g h v)
  · exact (pay1_apply _ _ _ _ _ _ _ _ _ g ⟨1, hkh⟩ ⟨1, hkw⟩ h v 4 (by decide) rfl _ rfl).trans
      (piece_apply v0 v2 v4 1 1 ⟨1, hkh⟩ ⟨1, hkw⟩ rfl rfl _ _ g h v)
  · exact (pay1_apply _ _ _ _ _ _ _ _ _ g ⟨1, hkh⟩ ⟨2, hkw⟩ h v 5 (by decide) rfl _ rfl).trans
      (piece_apply v0 v2 v4 1 2 ⟨1, hkh⟩ ⟨2, hkw⟩ rfl rfl _ _ g h v)
  · exact (pay1_apply _ _ _ _ _ _ _ _ _ g ⟨2, hkh⟩ ⟨0, hkw⟩ h v 6 (by decide) rfl _ rfl).trans
      (piece_apply v0 v2 v4 2 0 ⟨2, hkh⟩ ⟨0, hkw⟩ rfl rfl _ _ g h v)
  · exact (pay1_apply _ _ _ _ _ _ _ _ _ g ⟨2, hkh⟩ ⟨1, hkw⟩ h v 7 (by decide) rfl _ rfl).trans
      (piece_apply v0 v2 v4 2 1 ⟨2, hkh⟩ ⟨1, hkw⟩ rfl rfl _ _ g h v)
  · exact (pay1_apply _ _ _ _ _ _ _ _ _ g ⟨2, hkh⟩ ⟨2, hkw⟩ h v 8 (by decide) rfl _ rfl).trans
      (piece_apply v0 v2 v4 2 2 ⟨2, hkh⟩ ⟨2, hkw⟩ rfl rfl _ _ g h v)

end Cert.KernelIdeal.Hand

end
-- ==== Proof.KIValue.lean ====
/-
  The kernel's result array after the run, on the extended reals.

  The grid has 64 points t = 16·n + s, n < 4 a batch entry and s < 16 a time step, the time step fastest. Point (n, s)
  writes the block [n, 0 … 71, s, 0 … 55, 0 … 55] of the result, and every index of the result lies in exactly such a block
  (index (n, ch, s, h, v) in the block of the point 16·n + s). What the point stores is a pure term of the three blocks it
  reads: frame s of batch entry n of the padded input P (the current frame), frame s − 1 of the same batch entry of
  P — frame 0 when s = 0 — (the previous frame), and time slice s of the weight w. At output channel 9·g + 3·kh + kw and
  pixel (h, v) that term is the float zero plus the sum over the 32 channels c = 32·g + j of

      (P[n, c, s − 1, h + 1, v + 1] · P[n, c, s, h + kh, v + kw]) · w[c, s, kh, kw].

  The previous frame is only read at its centre crop, the padded pixel (h + 1, v + 1), which lies inside the ring of
  padding: there P is the unpadded input x at pixel (h, v), so the first factor is x[n, c, s − 1, h, v]. The sum is
  therefore the group sum of the launch arguments at (n, g, kh, kw, s, h, v), the value of the one whole-array function of
  the arguments at the index (n, 9·g + 3·kh + kw, s, h, v); the blocks being restrictions of that one function and
  covering the array, the array ends holding it. Both arguments end as launched.
-/
import proofs.«150480_j19069654794413_1_alg».proof.Proof.KIFrame
import proofs.«150480_j19069654794413_1_alg».proof.Proof.Spec
import proofs.«150480_j19069654794413_1_alg».proof.Proof.KIBlock
import Idealize.ShloMosaic.Lib.Pipeline.Value
import Idealize.ShloMosaic.Lib.ValueIdx
import Idealize.ShloMosaic.Lib.StableHlo.Run

noncomputable section

open scoped BigOperators

namespace Cert.KernelIdeal.Hand

open Cert.KernelIdeal Cert.KernelIdeal.Gen Cert.Spec Idealize.ShloMosaic Idealize.ShloMosaic.TcCoe Idealize.ShloMosaic.ValueIdx Idealize.SL.Sem
open Idealize.ShloMosaic.Pipeline (Dat)

/-! ## The stored block is the pure term -/

theorem zeros5 : (![0, 0, 0, 0, 0] : Fin 5 → Nat) = fun _ => 0 := funext fun a => by fin_cases a <;> rfl
theorem zeros4 : (![0, 0, 0, 0] : Fin 4 → Nat) = fun _ => 0 := funext fun a => by fin_cases a <;> rfl

/-- The body loads its three staging buffers whole and stores the output's whole: what it leaves there is the pure
    term of the three loaded blocks. -/
theorem outBlk_eq {F : FTy → Type} [FloatOps F] (x0 x1 : Vec F S1x256x1x58x58 .f32) (x2 : Vec F S256x1x3x3 .f32) :
    outBlk x0 x1 x2 = storedTerm x0 x1 x2 := by
  unfold outBlk
  rw [View.canon_unit_zero zeros5]
  simp only [View.ld_unit_zero (S := S1x256x1x58x58) zeros5, View.ld_unit_zero (S := S256x1x3x3) zeros4]

/-! ## The grid's points and the index maps -/

/-- The batch entry of grid point t: the grid is 4 × 16, the last axis fastest. -/
def ptN (t : Fin cfg0.N) : Fin 4 := ⟨t.val / 16, by have h : t.val < 64 := N_0 ▸ t.isLt; omega⟩
/-- The time step of grid point t. -/
def ptT (t : Fin cfg0.N) : Fin 16 := ⟨t.val % 16, by omega⟩

@[simp] theorem ptN_val (t : Fin cfg0.N) : (ptN t).val = t.val / 16 := rfl
@[simp] theorem ptT_val (t : Fin cfg0.N) : (ptT t).val = t.val % 16 := rfl

/-- The four index maps at point t = 16·n + s, decided over the 64 points: the current frame's and the result's block
    is (n, 0, s, 0, 0), the previous frame's (n, 0, s − 1, 0, 0) with s − 1 truncated at 0, the weight's (0, s, 0, 0). -/
theorem idx_facts : ∀ t : Fin cfg0.N,
    (win0_0.index t (0 : Fin 5) = t.val / 16 ∧ win0_0.index t (1 : Fin 5) = 0 ∧ win0_0.index t (2 : Fin 5) = t.val % 16
      ∧ win0_0.index t (3 : Fin 5) = 0 ∧ win0_0.index t (4 : Fin 5) = 0)
    ∧ (win0_1.index t (0 : Fin 5) = t.val / 16 ∧ win0_1.index t (1 : Fin 5) = 0 ∧ win0_1.index t (2 : Fin 5) = t.val % 16 - 1
      ∧ win0_1.index t (3 : Fin 5) = 0 ∧ win0_1.index t (4 : Fin 5) = 0)
    ∧ (win0_2.index t (0 : Fin 4) = 0 ∧ win0_2.index t (1 : Fin 4) = t.val % 16 ∧ win0_2.index t (2 : Fin 4) = 0
      ∧ win0_2.index t (3 : Fin 4) = 0)
    ∧ (win0_3.index t (0 : Fin 5) = t.val / 16 ∧ win0_3.index t (1 : Fin 5) = 0 ∧ win0_3.index t (2 : Fin 5) = t.val % 16
      ∧ win0_3.index t (3 : Fin 5) = 0 ∧ win0_3.index t (4 : Fin 5) = 0) :=
  (by decide +kernel : ∀ t : Fin grid0.N, _)

variable (m : (ℓ : Loc nD τ sig) → Buf (Elt Ideal) ℓ) (ρ : Dev nD → PrngReg)

/-! ## The input blocks at an index -/

/-- The current frame's block at point (n, s) is frame s of batch entry n of the padded array. -/
theorem iblk0_apply (c : Dev nD) (t : Fin cfg0.N) (ch : Fin 256) (y x : Fin 58) :
    (iblk m c 0 t : Vec Ideal S1x256x1x58x58 .f32) (ix5 (0 : Fin 1) ch (0 : Fin 1) y x)
      = (V m c main_v0 : S4x256x16x58x58.Idx → EReal) (ix5 (ptN t) ch (ptT t) y x) := by
  obtain ⟨⟨e0, e1, e2, e3, e4⟩, -⟩ := idx_facts t
  unfold iblk
  rw [View.read_apply]
  show V m c main_v0 _ = V m c main_v0 _
  congr 1
  funext a
  apply Fin.ext
  match a with
  | ⟨0, _⟩ => show win0_0.index t (0 : Fin 5) * 1 + 1 * 0 = t.val / 16; rw [e0]; omega
  | ⟨1, _⟩ => show win0_0.index t (1 : Fin 5) * 256 + 1 * ch.val = ch.val; rw [e1]; omega
  | ⟨2, _⟩ => show win0_0.index t (2 : Fin 5) * 1 + 1 * 0 = t.val % 16; rw [e2]; omega
  | ⟨3, _⟩ => show win0_0.index t (3 : Fin 5) * 58 + 1 * y.val = y.val; rw [e3]; omega
  | ⟨4, _⟩ => show win0_0.index t (4 : Fin 5) * 58 + 1 * x.val = x.val; rw [e4]; omega

/-- The previous frame's block at point (n, s) is frame s − 1 (frame 0 at s = 0) of batch entry n of the padded array. -/
theorem iblk1_apply (c : Dev nD) (t : Fin cfg0.N) (ch : Fin 256) (y x : Fin 58) :
    (iblk m c 1 t : Vec Ideal S1x256x1x58x58 .f32) (ix5 (0 : Fin 1) ch (0 : Fin 1) y x)
      = (V m c main_v0 : S4x256x16x58x58.Idx → EReal) (ix5 (ptN t) ch (prevT (ptT t)) y x) := by
  obtain ⟨-, ⟨e0, e1, e2, e3, e4⟩, -⟩ := idx_facts t
  unfold iblk
  rw [View.read_apply]
  show V m c main_v0 _ = V m c main_v0 _
  congr 1
  funext a
  apply Fin.ext
  match a with
  | ⟨0, _⟩ => show win0_1.index t (0 : Fin 5) * 1 + 1 * 0 = t.val / 16; rw [e0]; omega
  | ⟨1, _⟩ => show win0_1.index t (1 : Fin 5) * 256 + 1 * ch.val = ch.val; rw [e1]; omega
  | ⟨2, _⟩ => show win0_1.index t (2 : Fin 5) * 1 + 1 * 0 = t.val % 16 - 1; rw [e2]; omega
  | ⟨3, _⟩ => show win0_1.index t (3 : Fin 5) * 58 + 1 * y.val = y.val; rw [e3]; omega
  | ⟨4, _⟩ => show win0_1.index t (4 : Fin 5) * 58 + 1 * x.val = x.val; rw [e4]; omega

/-- The weight's block at point (n, s) is time slice s of the weight. -/
theorem iblk2_apply (c : Dev nD) (t : Fin cfg0.N) (ch : Fin 256) (kh kw : Fin 3) :
    (iblk m c 2 t : Vec Ideal S256x1x3x3 .f32) (ix4 ch (0 : Fin 1) kh kw)
      = (V m c main_arg1 : S256x16x3x3.Idx → EReal) (ix4 ch (ptT t) kh kw) := by
  obtain ⟨-, -, ⟨e0, e1, e2, e3⟩, -⟩ := idx_facts t
  unfold iblk
  rw [View.read_apply]
  show V m c main_arg1 _ = V m c main_arg1 _
  congr 1
  funext a
  apply Fin.ext
  match a with
  | ⟨0, _⟩ => show win0_2.index t (0 : Fin 4) * 256 + 1 * ch.val = ch.val; rw [e0]; omega
  | ⟨1, _⟩ => show win0_2.index t (1 : Fin 4) * 1 + 1 * 0 = t.val % 16; rw [e1]; omega
  | ⟨2, _⟩ => show win0_2.index t (2 : Fin 4) * 3 + 1 * kh.val = kh.val; rw [e2]; omega
  | ⟨3, _⟩ => show win0_2.index t (3 : Fin 4) * 3 + 1 * kw.val = kw.val; rw [e3]; omega

/-! ## The result's blocks cover the array -/

/-- An index of the result is in point t's block iff each coordinate is in the block's range on its axis. -/
theorem mem_blk3 (t : Fin cfg0.N) (i : S4x72x16x56x56.Idx) :
    i ∈ ((cfg0.win 3).blk t).view.set
      ↔ ∀ a : Fin 5, win0_3.index t a * S1x72x1x56x56.size a ≤ (i a).val ∧ (i a).val < win0_3.index t a * S1x72x1x56x56.size a + S1x72x1x56x56.size a := by
  show i ∈ ((View.whole main_v1).slice (win0_3.rect t)).set ↔ _
  rw [View.set_slice_whole, Rect.mem_set_unit]
  exact Iff.rfl

/-- Every index (n, ch, s, h, v) of the result is in the block of the point 16·n + s. -/
theorem cover3 (i : S4x72x16x56x56.Idx) :
    ∃ t : Fin cfg0.N, (cfg0.win 3).flush t = true ∧ i ∈ ((cfg0.win 3).blk t).view.set := by
  have h0 : (i 0).val < 4 := (i 0).isLt
  have h1 : (i 1).val < 72 := (i 1).isLt
  have h2 : (i 2).val < 16 := (i 2).isLt
  have h3 : (i 3).val < 56 := (i 3).isLt
  have h4 : (i 4).val < 56 := (i 4).isLt
  have hN : cfg0.N = 64 := N_0
  refine ⟨⟨16 * (i 0).val + (i 2).val, by rw [hN]; omega⟩, flush0_3 _, ?_⟩
  obtain ⟨-, -, -, ⟨e0, e1, e2, e3, e4⟩⟩ := idx_facts ⟨16 * (i 0).val + (i 2).val, by rw [hN]; omega⟩
  rw [mem_blk3]
  intro a
  match a with
  | ⟨0, _⟩ => show win0_3.index _ (0 : Fin 5) * 1 ≤ (i 0).val ∧ (i 0).val < win0_3.index _ (0 : Fin 5) * 1 + 1; rw [e0]; show (16 * (i 0).val + (i 2).val) / 16 * 1 ≤ (i 0).val ∧ (i 0).val < (16 * (i 0).val + (i 2).val) / 16 * 1 + 1; omega
  | ⟨1, _⟩ => show win0_3.index _ (1 : Fin 5) * 72 ≤ (i 1).val ∧ (i 1).val < win0_3.index _ (1 : Fin 5) * 72 + 72; rw [e1]; omega
  | ⟨2, _⟩ => show win0_3.index _ (2 : Fin 5) * 1 ≤ (i 2).val ∧ (i 2).val < win0_3.index _ (2 : Fin 5) * 1 + 1; rw [e2]; show (16 * (i 0).val + (i 2).val) % 16 * 1 ≤ (i 2).val ∧ (i 2).val < (16 * (i 0).val + (i 2).val) % 16 * 1 + 1; omega
  | ⟨3, _⟩ => show win0_3.index _ (3 : Fin 5) * 56 ≤ (i 3).val ∧ (i 3).val < win0_3.index _ (3 : Fin 5) * 56 + 56; rw [e3]; omega
  | ⟨4, _⟩ => show win0_3.index _ (4 : Fin 5) * 56 ≤ (i 4).val ∧ (i 4).val < win0_3.index _ (4 : Fin 5) * 56 + 56; rw [e4]; omega

/-! ## The padded array and the weight as the region finds them -/

/-- The region finds the first two windows' array at the first launch argument padded with one ring of the float the
    integer zero converts to. -/
theorem V_main_v0 (c : Dev nD) :
    (V m c main_v0 : S4x256x16x58x58.Idx → EReal) = padded (m ((c : Thread nD τ).loc main_arg0)) := by
  dsimp only [V]
  simp only [hostOps0, hostOps0_1, List.flatten_cons, List.flatten_nil, List.append_nil, List.cons_append, List.nil_append]
  after_results
  rfl

/-! ## What a point writes back -/

/-- The block point (n, s) stores, at output channel 9·g + 3·kh + kw and pixel (h, v), is the group sum of the launch
    arguments at (n, g, kh, kw, s, h, v): the previous frame's centre crop is the unpadded input at frame s − 1, the
    current frame's shifted crop the padded input at frame s, the weight slice the weight at time s. -/
theorem stored_apply (c : Dev nD) (t : Fin cfg0.N) (g : Fin 8) (kh kw : Fin 3) (h v : Fin 56) :
    storedTerm (F := Ideal) (iblk m c 0 t) (iblk m c 1 t) (iblk m c 2 t)
        (ix5 (0 : Fin 1) (outChan g kh kw) (0 : Fin 1) h v)
      = Gsum (m ((c : Thread nD τ).loc main_arg0)) (padded (m ((c : Thread nD τ).loc main_arg0)))
          (m ((c : Thread nD τ).loc main_arg1)) (ptN t) g kh kw (ptT t) h v := by
  refine (storedTerm_apply (iblk m c 0 t) (iblk m c 1 t) (iblk m c 2 t) g kh kw h v).trans ?_
  unfold Gsum
  refine congrArg (Ideal.ofBits .f32 0x00000000#32 + ·) (Finset.sum_congr rfl fun j _ => ?_)
  rw [iblk1_apply m c t, iblk0_apply m c t, iblk2_apply m c t, V_main_v0 m c, padded_inside]
  show _ = _ * (m ((c : Thread nD τ).loc main_arg1) : S256x16x3x3.Idx → EReal) _
  rw [← V_main_arg1 m c]

/-- Where point t = 16·n + s's block lies in the result: its entry (0, ch, 0, h, v) is the array's (n, ch, s, h, v). -/
theorem blk3_emb (t : Fin cfg0.N) (ch : Fin 72) (h v : Fin 56) :
    ((cfg0.win 3).blk t).view.emb (ix5 (0 : Fin 1) ch (0 : Fin 1) h v : S1x72x1x56x56.Idx)
      = (ix5 (ptN t) ch (ptT t) h v : S4x72x16x56x56.Idx) := by
  obtain ⟨-, -, -, ⟨e0, e1, e2, e3, e4⟩⟩ := idx_facts t
  funext a
  apply Fin.ext
  match a with
  | ⟨0, _⟩ => show win0_3.index t (0 : Fin 5) * 1 + 1 * 0 = t.val / 16; rw [e0]; omega
  | ⟨1, _⟩ => show win0_3.index t (1 : Fin 5) * 72 + 1 * ch.val = ch.val; rw [e1]; omega
  | ⟨2, _⟩ => show win0_3.index t (2 : Fin 5) * 1 + 1 * 0 = t.val % 16; rw [e2]; omega
  | ⟨3, _⟩ => show win0_3.index t (3 : Fin 5) * 56 + 1 * h.val = h.val; rw [e3]; omega
  | ⟨4, _⟩ => show win0_3.index t (4 : Fin 5) * 56 + 1 * v.val = v.val; rw [e4]; omega

/-- WHAT POINT t WRITES BACK is block t of the group sums of the launch arguments. -/
theorem flushed_eq (c : Dev nD) (t : Fin cfg0.N) :
    (dats (F := Ideal) m 0 c).flushed 3 t
      = ((cfg0.win 3).blk t).view.read (Elt Ideal)
          (Gfun (m ((c : Thread nD τ).loc main_arg0)) (padded (m ((c : Thread nD τ).loc main_arg0)))
            (m ((c : Thread nD τ).loc main_arg1))) := by
  show ((dats (F := Ideal) m 0 c).after 3 t : S1x72x1x56x56.Idx → EReal) = _
  rw [after3, outBlk_eq]
  funext y
  obtain ⟨g, kh, kw, hch⟩ := exists_outChan (y 1)
  obtain ⟨h, v, e⟩ : ∃ h v : Fin 56, y = ix5 (0 : Fin 1) (outChan g kh kw) (0 : Fin 1) h v :=
    ⟨y 3, y 4, funext fun a => by
      match a with
      | ⟨0, _⟩ => exact Subsingleton.elim (α := Fin 1) _ _
      | ⟨1, _⟩ => exact hch
      | ⟨2, _⟩ => exact Subsingleton.elim (α := Fin 1) _ _
      | ⟨3, _⟩ => rfl
      | ⟨4, _⟩ => rfl⟩
  rw [e, stored_apply m c t, View.read_apply, blk3_emb t]
  exact (Gfun_apply _ _ _ (ptN t) g kh kw (ptT t) h v).symm

/-! ## The result array, and the run -/

/-- The result array after the run: at every index the group sum of the launch arguments. -/
theorem final_out (c : Dev nD) :
    (dats (F := Ideal) m 0 c).arrAt 3 cfg0.N
      = Gfun (m ((c : Thread nD τ).loc main_arg0)) (padded (m ((c : Thread nD τ).loc main_arg0)))
          (m ((c : Thread nD τ).loc main_arg1)) :=
  (dats (F := Ideal) m 0 c).arrAt_eq_of_cover 3 _ (fun t _ => flushed_eq m c t) cover3

/-- The run, read: the result at the group sums of the arguments, the arguments unchanged. -/
theorem run_value : θ_run defs (onTc (τ := τ) (main (F := Ideal))) ⟨m, fun _ => 0, ρ⟩ fun r => ∀ c : Dev nD,
    r.2.mem ((c.tc : Thread nD τ).loc main_v1)
        = Gfun (m ((c.tc : Thread nD τ).loc main_arg0)) (padded (m ((c.tc : Thread nD τ).loc main_arg0)))
            (m ((c.tc : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1) :=
  (θ_run defs _ _).mono (fun _ h c => ⟨((h c).1 3).trans (final_out m c),
      ((h c).2 main_arg0 (Pipeline.mem_restRefs_of main_arg0 (by decide) (by decide))).trans (V_main_arg0 m c),
      ((h c).1 2).trans (((dats m 0 c).arrAt_in 2 rfl _).trans ((A_eq m c 2).trans (V_main_arg1 m c)))⟩) (run_main m ρ)

end Cert.KernelIdeal.Hand

end
-- ==== Proof.RefStages.lean ====
/-
  The reference, stage by stage. The host program first builds the previous-frame input (the first frame followed
  by the first fifteen: frame t is the input's frame t − 1, frame 0 its own predecessor) and the input padded by
  one ring per frame; then, for each of the nine stencil offsets (a, b), it multiplies the previous-frame input by
  the padded input cropped at (a, b) and by the weight's entry (a, b) broadcast over batch and pixels, views the
  256 channels as 8 groups of 32 and sums each group; last it stacks the nine [4, 8, 16, 56, 56] sums along a new
  axis after the group axis and flattens group and offset into 72 channels.

  Each stage is named here as a pure function, so that the run can be stated over them (a stage used nine times
  is one name, not nine copies of its text) and read at an index one stage at a time.
-/
import proofs.«150480_j19069654794413_1_alg».proof.Proof.Gen.ReferenceIdeal

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The previous-frame input: frame 0, then frames 0 … 14. -/
def xprevS (x : (⟨S4x256x16x56x56, .f32⟩ : BufTy).Contents (Elt F)) : (⟨S4x256x16x56x56, .f32⟩ : BufTy).Contents (Elt F) :=
  concatenate S4x256x16x56x56 2
    [⟨S4x256x1x56x56, extractStridedSlice S4x256x1x56x56 ![0, 0, 0, 0, 0] x slices_S4x256x16x56x56_S4x256x1x56x56_0_0_0_0_0⟩,
     ⟨S4x256x15x56x56, extractStridedSlice S4x256x15x56x56 ![0, 0, 0, 0, 0] x slices_S4x256x16x56x56_S4x256x15x56x56_0_0_0_0_0⟩]
    concatenates_S4x256x1x56x56_S4x256x15x56x56_S4x256x16x56x56_d2

/-- The input with one ring of the float zero around each frame. -/
def paddedS (x : (⟨S4x256x16x56x56, .f32⟩ : BufTy).Contents (Elt F)) : (⟨S4x256x16x58x58, .f32⟩ : BufTy).Contents (Elt F) :=
  pad S4x256x16x58x58 ![0, 0, 0, 1, 1] ![0, 0, 0, 1, 1] ![0, 0, 0, 0, 0] x (sitofp (F := F) .f32 (constantI S_ 32 0#32))
    pads_S4x256x16x56x56_S4x256x16x58x58_000_000_000_110_110 h_S_

/-- The group sums at stencil offset (a, b): previous frame times shifted current frame times weight, summed over
    each group of 32 channels, from the float zero. -/
def sumS (a b : Nat) (hs : S4x256x16x58x58.Slices ![0, 0, 0, a, b] S4x256x16x56x56) (hw : S256x16x3x3.Slices ![0, 0, a, b] S256x16x1x1)
    (xp : (⟨S4x256x16x56x56, .f32⟩ : BufTy).Contents (Elt F)) (P : (⟨S4x256x16x58x58, .f32⟩ : BufTy).Contents (Elt F))
    (w : (⟨S256x16x3x3, .f32⟩ : BufTy).Contents (Elt F)) : (⟨S4x8x16x56x56, .f32⟩ : BufTy).Contents (Elt F) :=
  Host.reduceAdd
    (shapeCast S4x8x32x16x56x56
      (mulf (mulf xp (extractStridedSlice S4x256x16x56x56 ![0, 0, 0, a, b] P hs))
        (broadcastInDim S4x256x16x56x56 ![0, 1, 2, 3, 4] bcast_S1x256x16x1x1_S4x256x16x56x56_0_1_2_3_4
          (broadcastInDim S1x256x16x1x1 ![1, 2] bcast_S256x16_S1x256x16x1x1_1_2
            (shapeCast S256x16 (extractStridedSlice S256x16x1x1 ![0, 0, a, b] w hw) shapeCasts_S256x16x1x1_S256x16))))
      shapeCasts_S4x256x16x56x56_S4x8x32x16x56x56)
    (constant S_ .f32 0x00000000#32) reducesTo_S4x8x32x16x56x56_S4x8x16x56x56_d2 h_S_

/-- The nine sums stacked after the group axis and flattened: channel 9·g + k is sum k's group g. -/
def stackS (s0 s1 s2 s3 s4 s5 s6 s7 s8 : (⟨S4x8x16x56x56, .f32⟩ : BufTy).Contents (Elt F)) : (⟨S4x72x16x56x56, .f32⟩ : BufTy).Contents (Elt F) :=
  shapeCast S4x72x16x56x56
    (concatenate S4x8x9x16x56x56 2
      [⟨S4x8x1x16x56x56, broadcastInDim S4x8x1x16x56x56 ![0, 1, 3, 4, 5] bcast_S4x8x16x56x56_S4x8x1x16x56x56_0_1_3_4_5 s0⟩,
       ⟨S4x8x1x16x56x56, broadcastInDim S4x8x1x16x56x56 ![0, 1, 3, 4, 5] bcast_S4x8x16x56x56_S4x8x1x16x56x56_0_1_3_4_5 s1⟩,
       ⟨S4x8x1x16x56x56, broadcastInDim S4x8x1x16x56x56 ![0, 1, 3, 4, 5] bcast_S4x8x16x56x56_S4x8x1x16x56x56_0_1_3_4_5 s2⟩,
       ⟨S4x8x1x16x56x56, broadcastInDim S4x8x1x16x56x56 ![0, 1, 3, 4, 5] bcast_S4x8x16x56x56_S4x8x1x16x56x56_0_1_3_4_5 s3⟩,
       ⟨S4x8x1x16x56x56, broadcastInDim S4x8x1x16x56x56 ![0, 1, 3, 4, 5] bcast_S4x8x16x56x56_S4x8x1x16x56x56_0_1_3_4_5 s4⟩,
       ⟨S4x8x1x16x56x56, broadcastInDim S4x8x1x16x56x56 ![0, 1, 3, 4, 5] bcast_S4x8x16x56x56_S4x8x1x16x56x56_0_1_3_4_5 s5⟩,
       ⟨S4x8x1x16x56x56, broadcastInDim S4x8x1x16x56x56 ![0, 1, 3, 4, 5] bcast_S4x8x16x56x56_S4x8x1x16x56x56_0_1_3_4_5 s6⟩,
       ⟨S4x8x1x16x56x56, broadcastInDim S4x8x1x16x56x56 ![0, 1, 3, 4, 5] bcast_S4x8x16x56x56_S4x8x1x16x56x56_0_1_3_4_5 s7⟩,
       ⟨S4x8x1x16x56x56, broadcastInDim S4x8x1x16x56x56 ![0, 1, 3, 4, 5] bcast_S4x8x16x56x56_S4x8x1x16x56x56_0_1_3_4_5 s8⟩]
      concatenates_S4x8x1x16x56x56_S4x8x1x16x56x56_S4x8x1x16x56x56_S4x8x1x16x56x56_S4x8x1x16x56x56_S4x8x1x16x56x56_S4x8x1x16x56x56_S4x8x1x16x56x56_S4x8x1x16x56x56_S4x8x9x16x56x56_d2)
    shapeCasts_S4x8x9x16x56x56_S4x72x16x56x56

/-- The reference's result as a function of its two arguments. -/
def refVal (x : (⟨S4x256x16x56x56, .f32⟩ : BufTy).Contents (Elt F)) (w : (⟨S256x16x3x3, .f32⟩ : BufTy).Contents (Elt F)) :
    (⟨S4x72x16x56x56, .f32⟩ : BufTy).Contents (Elt F) :=
  stackS
    (sumS 0 0 slices_S4x256x16x58x58_S4x256x16x56x56_0_0_0_0_0 slices_S256x16x3x3_S256x16x1x1_0_0_0_0 (xprevS x) (paddedS x) w)
    (sumS 0 1 slices_S4x256x16x58x58_S4x256x16x56x56_0_0_0_0_1 slices_S256x16x3x3_S256x16x1x1_0_0_0_1 (xprevS x) (paddedS x) w)
    (sumS 0 2 slices_S4x256x16x58x58_S4x256x16x56x56_0_0_0_0_2 slices_S256x16x3x3_S256x16x1x1_0_0_0_2 (xprevS x) (paddedS x) w)
    (sumS 1 0 slices_S4x256x16x58x58_S4x256x16x56x56_0_0_0_1_0 slices_S256x16x3x3_S256x16x1x1_0_0_1_0 (xprevS x) (paddedS x) w)
    (sumS 1 1 slices_S4x256x16x58x58_S4x256x16x56x56_0_0_0_1_1 slices_S256x16x3x3_S256x16x1x1_0_0_1_1 (xprevS x) (paddedS x) w)
    (sumS 1 2 slices_S4x256x16x58x58_S4x256x16x56x56_0_0_0_1_2 slices_S256x16x3x3_S256x16x1x1_0_0_1_2 (xprevS x) (paddedS x) w)
    (sumS 2 0 slices_S4x256x16x58x58_S4x256x16x56x56_0_0_0_2_0 slices_S256x16x3x3_S256x16x1x1_0_0_2_0 (xprevS x) (paddedS x) w)
    (sumS 2 1 slices_S4x256x16x58x58_S4x256x16x56x56_0_0_0_2_1 slices_S256x16x3x3_S256x16x1x1_0_0_2_1 (xprevS x) (paddedS x) w)
    (sumS 2 2 slices_S4x256x16x58x58_S4x256x16x56x56_0_0_0_2_2 slices_S256x16x3x3_S256x16x1x1_0_0_2_2 (xprevS x) (paddedS x) w)

end Cert.ReferenceIdeal.Hand

end
-- ==== Proof.RefRun.lean ====
/-
  The run of the reference program: every weakly fair execution of its @main terminates with the result buffer
  at `refVal` of the two arguments, and the arguments unchanged.

  @main is a straight line of 107 host operations. It is cut here into eleven consecutive windows, by what each
  writes from what:
    window A (operations 1 to 6) reads the input and writes its first frame, its first fifteen frames, their
      concatenation `main_v2` (the previous-frame input, `xprevS`), the integer zero, that zero as a float, and
      `main_v3`, the input padded by one ring of it (`paddedS`);
    window Bk, k = 0 … 8 (ten operations each) reads `main_v2`, `main_v3` and the weight and writes, through nine
      buffers of its own, the group sums at stencil offset (k / 3, k % 3) (`sumS`) into the k-th of `main_v12`,
      `main_v21`, `main_v30`, `main_v39`, `main_v48`, `main_v57`, `main_v66`, `main_v75`, `main_v84`;
    window C (the last eleven) reads those nine sums and writes their nine broadcasts, the concatenation of these
      and its flattening `main_v95` (`stackS`).
  The contents after a line of operations are the fold of the operations' results over the contents before it, and
  the fold over an append is the fold over the second line from the fold over the first. So each window is
  evaluated by itself, from ANY contents before it: what a window computes is read off its own few operations,
  and a buffer that no operation of a window writes keeps its contents through it. Window A establishes the four
  buffers every later window reads (`In`); no later window writes them, so they hold before each; window Bk then
  gives its sum, which the windows after it do not write, so all nine hold before window C; and `stackS` of the
  nine sums is `refVal`.
-/
import proofs.«150480_j19069654794413_1_alg».proof.Proof.RefStages
import Idealize.ShloMosaic.Lib.StableHlo.Run
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The windows -/

/-- Operations 1 to 6: the previous-frame input and the padded input. -/
def opsA : List (HloOp τ sig (Elt F)) :=
  [ unary main_arg0 main_v0 ((extractStridedSlice S4x256x1x56x56 ![0, 0, 0, 0, 0] · slices_S4x256x16x56x56_S4x256x1x56x56_0_0_0_0_0) : (⟨S4x256x16x56x56, .f32⟩ : BufTy).Contents (Elt F) → (⟨S4x256x1x56x56, .f32⟩ : BufTy).Contents (Elt F)),
    unary main_arg0 main_v1 ((extractStridedSlice S4x256x15x56x56 ![0, 0, 0, 0, 0] · slices_S4x256x16x56x56_S4x256x15x56x56_0_0_0_0_0) : (⟨S4x256x16x56x56, .f32⟩ : BufTy).Contents (Elt F) → (⟨S4x256x15x56x56, .f32⟩ : BufTy).Contents (Elt F)),
    binary main_v0 main_v1 main_v2 ((fun a b => concatenate S4x256x16x56x56 2 [⟨S4x256x1x56x56, a⟩, ⟨S4x256x15x56x56, b⟩] concatenates_S4x256x1x56x56_S4x256x15x56x56_S4x256x16x56x56_d2) : (⟨S4x256x1x56x56, .f32⟩ : BufTy).Contents (Elt F) → (⟨S4x256x15x56x56, .f32⟩ : BufTy).Contents (Elt F) → (⟨S4x256x16x56x56, .f32⟩ : BufTy).Contents (Elt F)),
    nullary main_c (constantI S_ 32 0#32),
    TRef.unary (TRef.of (T := ⟨S_, .i32⟩) main_c) (TRef.of (T := ⟨S_, .f32⟩) main_call0_v0) (sitofp .f32),
    TRef.binary (TRef.of (T := ⟨S4x256x16x56x56, .f32⟩) main_arg0) (TRef.of (T := ⟨S_, .f32⟩) main_call0_v0) (TRef.of (T := ⟨S4x256x16x58x58, .f32⟩) main_v3) (fun x v => pad S4x256x16x58x58 ![0, 0, 0, 1, 1] ![0, 0, 0, 1, 1] ![0, 0, 0, 0, 0] x v pads_S4x256x16x56x56_S4x256x16x58x58_000_000_000_110_110 h_S_) ]

/-- Operations 7 to 16: the sums at offset (0, 0). -/
def opsB0 : List (HloOp τ sig (Elt F)) :=
  [ unary main_v3 main_v4 ((extractStridedSlice S4x256x16x56x56 ![0, 0, 0, 0, 0] · slices_S4x256x16x58x58_S4x256x16x56x56_0_0_0_0_0) : (⟨S4x256x16x58x58, .f32⟩ : BufTy).Contents (Elt F) → (⟨S4x256x16x56x56, .f32⟩ : BufTy).Contents (Elt F)),
    unary main_arg1 main_v5 ((extractStridedSlice S256x16x1x1 ![0, 0, 0, 0] · slices_S256x16x3x3_S256x16x1x1_0_0_0_0) : (⟨S256x16x3x3, .f32⟩ : BufTy).Contents (Elt F) → (⟨S256x16x1x1, .f32⟩ : BufTy).Contents (Elt F)),
    reshape main_v5 main_v6 rfl shapeCasts_S256x16x1x1_S256x16,
    binary main_v2 main_v4 main_v7 (mulf : (⟨S4x256x16x56x56, .f32⟩ : BufTy).Contents (Elt F) → (⟨S4x256x16x56x56, .f32⟩ : BufTy).Contents (Elt F) → (⟨S4x256x16x56x56, .f32⟩ : BufTy).Contents (Elt F)),
    unary main_v6 main_v8 (broadcastInDim S1x256x16x1x1 ![1, 2] bcast_S256x16_S1x256x16x1x1_1_2 : (⟨S256x16, .f32⟩ : BufTy).Contents (Elt F) → (⟨S1x256x16x1x1, .f32⟩ : BufTy).Contents (Elt F)),
    unary main_v8 main_v9 (broadcastInDim S4x256x16x56x56 ![0, 1, 2, 3, 4] bcast_S1x256x16x1x1_S4x256x16x56x56_0_1_2_3_4 : (⟨S1x256x16x1x1, .f32⟩ : BufTy).Contents (Elt F) → (⟨S4x256x16x56x56, .f32⟩ : BufTy).Contents (Elt F)),
    binary main_v7 main_v9 main_v10 (mulf : (⟨S4x256x16x56x56, .f32⟩ : BufTy).Contents (Elt F) → (⟨S4x256x16x56x56, .f32⟩ : BufTy).Contents (Elt F) → (⟨S4x256x16x56x56, .f32⟩ : BufTy).Contents (Elt F)),
    reshape main_v10 main_v11 rfl shapeCasts_S4x256x16x56x56_S4x8x32x16x56x56,
    nullary main_cst (constant S_ .f32 0x00000000#32),
    binary main_v11 main_cst main_v12 ((fun x v => Host.reduceAdd x v reducesTo_S4x8x32x16x56x56_S4x8x16x56x56_d2 h_S_) : (⟨S4x8x32x16x56x56, .f32⟩ : BufTy).Contents (Elt F) → (⟨S_, .f32⟩ : BufTy).Contents (Elt F) → (⟨S4x8x16x56x56, .f32⟩ : BufTy).Contents (Elt F)) ]

/-- Operations 17 to 26: the sums at offset (0, 1). -/
def opsB1 : List (HloOp τ sig (Elt F)) :=
  [ unary main_v3 main_v13 ((extractStridedSlice S4x256x16x56x56 ![0, 0, 0, 0, 1] · slices_S4x256x16x58x58_S4x256x16x56x56_0_0_0_0_1) : (⟨S4x256x16x58x58, .f32⟩ : BufTy).Contents (Elt F) → (⟨S4x256x16x56x56, .f32⟩ : BufTy).Contents (Elt F)),
    unary main_arg1 main_v14 ((extractStridedSlice S256x16x1x1 ![0, 0, 0, 1] · slices_S256x16x3x3_S256x16x1x1_0_0_0_1) : (⟨S256x16x3x3, .f32⟩ : BufTy).Contents (Elt F) → (⟨S256x16x1x1, .f32⟩ : BufTy).Contents (Elt F)),
    reshape main_v14 main_v15 rfl shapeCasts_S256x16x1x1_S256x16,
    binary main_v2 main_v13 main_v16 (mulf : (⟨S4x256x16x56x56, .f32⟩ : BufTy).Contents (Elt F) → (⟨S4x256x16x56x56, .f32⟩ : BufTy).Contents (Elt F) → (⟨S4x256x16x56x56, .f32⟩ : BufTy).Contents (Elt F)),
    unary main_v15 main_v17 (broadcastInDim S1x256x16x1x1 ![1, 2] bcast_S256x16_S1x256x16x1x1_1_2 : (⟨S256x16, .f32⟩ : BufTy).Contents (Elt F) → (⟨S1x256x16x1x1, .f32⟩ : BufTy).Contents (Elt F)),
    unary main_v17 main_v18 (broadcastInDim S4x256x16x56x56 ![0, 1, 2, 3, 4] bcast_S1x256x16x1x1_S4x256x16x56x56_0_1_2_3_4 : (⟨S1x256x16x1x1, .f32⟩ : BufTy).Contents (Elt F) → (⟨S4x256x16x56x56, .f32⟩ : BufTy).Contents (Elt F)),
    binary main_v16 main_v18 main_v19 (mulf : (⟨S4x256x16x56x56, .f32⟩ : BufTy).Contents (Elt F) → (⟨S4x256x16x56x56, .f32⟩ : BufTy).Contents (Elt F) → (⟨S4x256x16x56x56, .f32⟩ : BufTy).Contents (Elt F)),
    reshape main_v19 main_v20 rfl shapeCasts_S4x256x16x56x56_S4x8x32x16x56x56,
    nullary main_cst_0 (constant S_ .f32 0x00000000#32),
    binary main_v20 main_cst_0 main_v21 ((fun x v => Host.reduceAdd x v reducesTo_S4x8x32x16x56x56_S4x8x16x56x56_d2 h_S_) : (⟨S4x8x32x16x56x56, .f32⟩ : BufTy).Contents (Elt F) → (⟨S_, .f32⟩ : BufTy).Contents (Elt F) → (⟨S4x8x16x56x56, .f32⟩ : BufTy).Contents (Elt F)) ]

/-- Operations 27 to 36: the sums at offset (0, 2). -/
def opsB2 : List (HloOp τ sig (Elt F)) :=
  [ unary main_v3 main_v22 ((extractStridedSlice S4x256x16x56x56 ![0, 0, 0, 0, 2] · slices_S4x256x16x58x58_S4x256x16x56x56_0_0_0_0_2) : (⟨S4x256x16x58x58, .f32⟩ : BufTy).Contents (Elt F) → (⟨S4x256x16x56x56, .f32⟩ : BufTy).Contents (Elt F)),
    unary main_arg1 main_v23 ((extractStridedSlice S256x16x1x1 ![0, 0, 0, 2] · slices_S256x16x3x3_S256x16x1x1_0_0_0_2) : (⟨S256x16x3x3, .f32⟩ : BufTy).Contents (Elt F) → (⟨S256x16x1x1, .f32⟩ : BufTy).Contents (Elt F)),
    reshape main_v23 main_v24 rfl shapeCasts_S256x16x1x1_S256x16,
    binary main_v2 main_v22 main_v25 (mulf : (⟨S4x256x16x56x56, .f32⟩ : BufTy).Contents (Elt F) → (⟨S4x256x16x56x56, .f32⟩ : BufTy).Contents (Elt F) → (⟨S4x256x16x56x56, .f32⟩ : BufTy).Contents (Elt F)),
    unary main_v24 main_v26 (broadcastInDim S1x256x16x1x1 ![1, 2] bcast_S256x16_S1x256x16x1x1_1_2 : (⟨S256x16, .f32⟩ : BufTy).Contents (Elt F) → (⟨S1x256x16x1x1, .f32⟩ : BufTy).Contents (Elt F)),
    unary main_v26 main_v27 (broadcastInDim S4x256x16x56x56 ![0, 1, 2, 3, 4] bcast_S1x256x16x1x1_S4x256x16x56x56_0_1_2_3_4 : (⟨S1x256x16x1x1, .f32⟩ : BufTy).Contents (Elt F) → (⟨S4x256x16x56x56, .f32⟩ : BufTy).Contents (Elt F)),
    binary main_v25 main_v27 main_v28 (mulf : (⟨S4x256x16x56x56, .f32⟩ : BufTy).Contents (Elt F) → (⟨S4x256x16x56x56, .f32⟩ : BufTy).Contents (Elt F) → (⟨S4x256x16x56x56, .f32⟩ : BufTy).Contents (Elt F)),
    reshape main_v28 main_v29 rfl shapeCasts_S4x256x16x56x56_S4x8x32x16x56x56,
    nullary main_cst_1 (constant S_ .f32 0x00000000#32),
    binary main_v29 main_cst_1 main_v30 ((fun x v => Host.reduceAdd x v reducesTo_S4x8x32x16x56x56_S4x8x16x56x56_d2 h_S_) : (⟨S4x8x32x16x56x56, .f32⟩ : BufTy).Contents (Elt F) → (⟨S_, .f32⟩ : BufTy).Contents (Elt F) → (⟨S4x8x16x56x56, .f32⟩ : BufTy).Contents (Elt F)) ]

/-- Operations 37 to 46: the sums at offset (1, 0). -/
def opsB3 : List (HloOp τ sig (Elt F)) :=
  [ unary main_v3 main_v31 ((extractStridedSlice S4x256x16x56x56 ![0, 0, 0, 1, 0] · slices_S4x256x16x58x58_S4x256x16x56x56_0_0_0_1_0) : (⟨S4x256x16x58x58, .f32⟩ : BufTy).Contents (Elt F) → (⟨S4x256x16x56x56, .f32⟩ : BufTy).Contents (Elt F)),
    unary main_arg1 main_v32 ((extractStridedSlice S256x16x1x1 ![0, 0, 1, 0] · slices_S256x16x3x3_S256x16x1x1_0_0_1_0) : (⟨S256x16x3x3, .f32⟩ : BufTy).Contents (Elt F) → (⟨S256x16x1x1, .f32⟩ : BufTy).Contents (Elt F)),
    reshape main_v32 main_v33 rfl shapeCasts_S256x16x1x1_S256x16,
    binary main_v2 main_v31 main_v34 (mulf : (⟨S4x256x16x56x56, .f32⟩ : BufTy).Contents (Elt F) → (⟨S4x256x16x56x56, .f32⟩ : BufTy).Contents (Elt F) → (⟨S4x256x16x56x56, .f32⟩ : BufTy).Contents (Elt F)),
    unary main_v33 main_v35 (broadcastInDim S1x256x16x1x1 ![1, 2] bcast_S256x16_S1x256x16x1x1_1_2 : (⟨S256x16, .f32⟩ : BufTy).Contents (Elt F) → (⟨S1x256x16x1x1, .f32⟩ : BufTy).Contents (Elt F)),
    unary main_v35 main_v36 (broadcastInDim S4x256x16x56x56 ![0, 1, 2, 3, 4] bcast_S1x256x16x1x1_S4x256x16x56x56_0_1_2_3_4 : (⟨S1x256x16x1x1, .f32⟩ : BufTy).Contents (Elt F) → (⟨S4x256x16x56x56, .f32⟩ : BufTy).Contents (Elt F)),
    binary main_v34 main_v36 main_v37 (mulf : (⟨S4x256x16x56x56, .f32⟩ : BufTy).Contents (Elt F) → (⟨S4x256x16x56x56, .f32⟩ : BufTy).Contents (Elt F) → (⟨S4x256x16x56x56, .f32⟩ : BufTy).Contents (Elt F)),
    reshape main_v37 main_v38 rfl shapeCasts_S4x256x16x56x56_S4x8x32x16x56x56,
    nullary main_cst_2 (constant S_ .f32 0x00000000#32),
    binary main_v38 main_cst_2 main_v39 ((fun x v => Host.reduceAdd x v reducesTo_S4x8x32x16x56x56_S4x8x16x56x56_d2 h_S_) : (⟨S4x8x32x16x56x56, .f32⟩ : BufTy).Contents (Elt F) → (⟨S_, .f32⟩ : BufTy).Contents (Elt F) → (⟨S4x8x16x56x56, .f32⟩ : BufTy).Contents (Elt F)) ]

/-- Operations 47 to 56: the sums at offset (1, 1). -/
def opsB4 : List (HloOp τ sig (Elt F)) :=
  [ unary main_v3 main_v40 ((extractStridedSlice S4x256x16x56x56 ![0, 0, 0, 1, 1] · slices_S4x256x16x58x58_S4x256x16x56x56_0_0_0_1_1) : (⟨S4x256x16x58x58, .f32⟩ : BufTy).Contents (Elt F) → (⟨S4x256x16x56x56, .f32⟩ : BufTy).Contents (Elt F)),
    unary main_arg1 main_v41 ((extractStridedSlice S256x16x1x1 ![0, 0, 1, 1] · slices_S256x16x3x3_S256x16x1x1_0_0_1_1) : (⟨S256x16x3x3, .f32⟩ : BufTy).Contents (Elt F) → (⟨S256x16x1x1, .f32⟩ : BufTy).Contents (Elt F)),
    reshape main_v41 main_v42 rfl shapeCasts_S256x16x1x1_S256x16,
    binary main_v2 main_v40 main_v43 (mulf : (⟨S4x256x16x56x56, .f32⟩ : BufTy).Contents (Elt F) → (⟨S4x256x16x56x56, .f32⟩ : BufTy).Contents (Elt F) → (⟨S4x256x16x56x56, .f32⟩ : BufTy).Contents (Elt F)),
    unary main_v42 main_v44 (broadcastInDim S1x256x16x1x1 ![1, 2] bcast_S256x16_S1x256x16x1x1_1_2 : (⟨S256x16, .f32⟩ : BufTy).Contents (Elt F) → (⟨S1x256x16x1x1, .f32⟩ : BufTy).Contents (Elt F)),
    unary main_v44 main_v45 (broadcastInDim S4x256x16x56x56 ![0, 1, 2, 3, 4] bcast_S1x256x16x1x1_S4x256x16x56x56_0_1_2_3_4 : (⟨S1x256x16x1x1, .f32⟩ : BufTy).Contents (Elt F) → (⟨S4x256x16x56x56, .f32⟩ : BufTy).Contents (Elt F)),
    binary main_v43 main_v45 main_v46 (mulf : (⟨S4x256x16x56x56, .f32⟩ : BufTy).Contents (Elt F) → (⟨S4x256x16x56x56, .f32⟩ : BufTy).Contents (Elt F) → (⟨S4x256x16x56x56, .f32⟩ : BufTy).Contents (Elt F)),
    reshape main_v46 main_v47 rfl shapeCasts_S4x256x16x56x56_S4x8x32x16x56x56,
    nullary main_cst_3 (constant S_ .f32 0x00000000#32),
    binary main_v47 main_cst_3 main_v48 ((fun x v => Host.reduceAdd x v reducesTo_S4x8x32x16x56x56_S4x8x16x56x56_d2 h_S_) : (⟨S4x8x32x16x56x56, .f32⟩ : BufTy).Contents (Elt F) → (⟨S_, .f32⟩ : BufTy).Contents (Elt F) → (⟨S4x8x16x56x56, .f32⟩ : BufTy).Contents (Elt F)) ]

/-- Operations 57 to 66: the sums at offset (1, 2). -/
def opsB5 : List (HloOp τ sig (Elt F)) :=
  [ unary main_v3 main_v49 ((extractStridedSlice S4x256x16x56x56 ![0, 0, 0, 1, 2] · slices_S4x256x16x58x58_S4x256x16x56x56_0_0_0_1_2) : (⟨S4x256x16x58x58, .f32⟩ : BufTy).Contents (Elt F) → (⟨S4x256x16x56x56, .f32⟩ : BufTy).Contents (Elt F)),
    unary main_arg1 main_v50 ((extractStridedSlice S256x16x1x1 ![0, 0, 1, 2] · slices_S256x16x3x3_S256x16x1x1_0_0_1_2) : (⟨S256x16x3x3, .f32⟩ : BufTy).Contents (Elt F) → (⟨S256x16x1x1, .f32⟩ : BufTy).Contents (Elt F)),
    reshape main_v50 main_v51 rfl shapeCasts_S256x16x1x1_S256x16,
    binary main_v2 main_v49 main_v52 (mulf : (⟨S4x256x16x56x56, .f32⟩ : BufTy).Contents (Elt F) → (⟨S4x256x16x56x56, .f32⟩ : BufTy).Contents (Elt F) → (⟨S4x256x16x56x56, .f32⟩ : BufTy).Contents (Elt F)),
    unary main_v51 main_v53 (broadcastInDim S1x256x16x1x1 ![1, 2] bcast_S256x16_S1x256x16x1x1_1_2 : (⟨S256x16, .f32⟩ : BufTy).Contents (Elt F) → (⟨S1x256x16x1x1, .f32⟩ : BufTy).Contents (Elt F)),
    unary main_v53 main_v54 (broadcastInDim S4x256x16x56x56 ![0, 1, 2, 3, 4] bcast_S1x256x16x1x1_S4x256x16x56x56_0_1_2_3_4 : (⟨S1x256x16x1x1, .f32⟩ : BufTy).Contents (Elt F) → (⟨S4x256x16x56x56, .f32⟩ : BufTy).Contents (Elt F)),
    binary main_v52 main_v54 main_v55 (mulf : (⟨S4x256x16x56x56, .f32⟩ : BufTy).Contents (Elt F) → (⟨S4x256x16x56x56, .f32⟩ : BufTy).Contents (Elt F) → (⟨S4x256x16x56x56, .f32⟩ : BufTy).Contents (Elt F)),
    reshape main_v55 main_v56 rfl shapeCasts_S4x256x16x56x56_S4x8x32x16x56x56,
    nullary main_cst_4 (constant S_ .f32 0x00000000#32),
    binary main_v56 main_cst_4 main_v57 ((fun x v => Host.reduceAdd x v reducesTo_S4x8x32x16x56x56_S4x8x16x56x56_d2 h_S_) : (⟨S4x8x32x16x56x56, .f32⟩ : BufTy).Contents (Elt F) → (⟨S_, .f32⟩ : BufTy).Contents (Elt F) → (⟨S4x8x16x56x56, .f32⟩ : BufTy).Contents (Elt F)) ]

/-- Operations 67 to 76: the sums at offset (2, 0). -/
def opsB6 : List (HloOp τ sig (Elt F)) :=
  [ unary main_v3 main_v58 ((extractStridedSlice S4x256x16x56x56 ![0, 0, 0, 2, 0] · slices_S4x256x16x58x58_S4x256x16x56x56_0_0_0_2_0) : (⟨S4x256x16x58x58, .f32⟩ : BufTy).Contents (Elt F) → (⟨S4x256x16x56x56, .f32⟩ : BufTy).Contents (Elt F)),
    unary main_arg1 main_v59 ((extractStridedSlice S256x16x1x1 ![0, 0, 2, 0] · slices_S256x16x3x3_S256x16x1x1_0_0_2_0) : (⟨S256x16x3x3, .f32⟩ : BufTy).Contents (Elt F) → (⟨S256x16x1x1, .f32⟩ : BufTy).Contents (Elt F)),
    reshape main_v59 main_v60 rfl shapeCasts_S256x16x1x1_S256x16,
    binary main_v2 main_v58 main_v61 (mulf : (⟨S4x256x16x56x56, .f32⟩ : BufTy).Contents (Elt F) → (⟨S4x256x16x56x56, .f32⟩ : BufTy).Contents (Elt F) → (⟨S4x256x16x56x56, .f32⟩ : BufTy).Contents (Elt F)),
    unary main_v60 main_v62 (broadcastInDim S1x256x16x1x1 ![1, 2] bcast_S256x16_S1x256x16x1x1_1_2 : (⟨S256x16, .f32⟩ : BufTy).Contents (Elt F) → (⟨S1x256x16x1x1, .f32⟩ : BufTy).Contents (Elt F)),
    unary main_v62 main_v63 (broadcastInDim S4x256x16x56x56 ![0, 1, 2, 3, 4] bcast_S1x256x16x1x1_S4x256x16x56x56_0_1_2_3_4 : (⟨S1x256x16x1x1, .f32⟩ : BufTy).Contents (Elt F) → (⟨S4x256x16x56x56, .f32⟩ : BufTy).Contents (Elt F)),
    binary main_v61 main_v63 main_v64 (mulf : (⟨S4x256x16x56x56, .f32⟩ : BufTy).Contents (Elt F) → (⟨S4x256x16x56x56, .f32⟩ : BufTy).Contents (Elt F) → (⟨S4x256x16x56x56, .f32⟩ : BufTy).Contents (Elt F)),
    reshape main_v64 main_v65 rfl shapeCasts_S4x256x16x56x56_S4x8x32x16x56x56,
    nullary main_cst_5 (constant S_ .f32 0x00000000#32),
    binary main_v65 main_cst_5 main_v66 ((fun x v => Host.reduceAdd x v reducesTo_S4x8x32x16x56x56_S4x8x16x56x56_d2 h_S_) : (⟨S4x8x32x16x56x56, .f32⟩ : BufTy).Contents (Elt F) → (⟨S_, .f32⟩ : BufTy).Contents (Elt F) → (⟨S4x8x16x56x56, .f32⟩ : BufTy).Contents (Elt F)) ]

/-- Operations 77 to 86: the sums at offset (2, 1). -/
def opsB7 : List (HloOp τ sig (Elt F)) :=
  [ unary main_v3 main_v67 ((extractStridedSlice S4x256x16x56x56 ![0, 0, 0, 2, 1] · slices_S4x256x16x58x58_S4x256x16x56x56_0_0_0_2_1) : (⟨S4x256x16x58x58, .f32⟩ : BufTy).Contents (Elt F) → (⟨S4x256x16x56x56, .f32⟩ : BufTy).Contents (Elt F)),
    unary main_arg1 main_v68 ((extractStridedSlice S256x16x1x1 ![0, 0, 2, 1] · slices_S256x16x3x3_S256x16x1x1_0_0_2_1) : (⟨S256x16x3x3, .f32⟩ : BufTy).Contents (Elt F) → (⟨S256x16x1x1, .f32⟩ : BufTy).Contents (Elt F)),
    reshape main_v68 main_v69 rfl shapeCasts_S256x16x1x1_S256x16,
    binary main_v2 main_v67 main_v70 (mulf : (⟨S4x256x16x56x56, .f32⟩ : BufTy).Contents (Elt F) → (⟨S4x256x16x56x56, .f32⟩ : BufTy).Contents (Elt F) → (⟨S4x256x16x56x56, .f32⟩ : BufTy).Contents (Elt F)),
    unary main_v69 main_v71 (broadcastInDim S1x256x16x1x1 ![1, 2] bcast_S256x16_S1x256x16x1x1_1_2 : (⟨S256x16, .f32⟩ : BufTy).Contents (Elt F) → (⟨S1x256x16x1x1, .f32⟩ : BufTy).Contents (Elt F)),
    unary main_v71 main_v72 (broadcastInDim S4x256x16x56x56 ![0, 1, 2, 3, 4] bcast_S1x256x16x1x1_S4x256x16x56x56_0_1_2_3_4 : (⟨S1x256x16x1x1, .f32⟩ : BufTy).Contents (Elt F) → (⟨S4x256x16x56x56, .f32⟩ : BufTy).Contents (Elt F)),
    binary main_v70 main_v72 main_v73 (mulf : (⟨S4x256x16x56x56, .f32⟩ : BufTy).Contents (Elt F) → (⟨S4x256x16x56x56, .f32⟩ : BufTy).Contents (Elt F) → (⟨S4x256x16x56x56, .f32⟩ : BufTy).Contents (Elt F)),
    reshape main_v73 main_v74 rfl shapeCasts_S4x256x16x56x56_S4x8x32x16x56x56,
    nullary main_cst_6 (constant S_ .f32 0x00000000#32),
    binary main_v74 main_cst_6 main_v75 ((fun x v => Host.reduceAdd x v reducesTo_S4x8x32x16x56x56_S4x8x16x56x56_d2 h_S_) : (⟨S4x8x32x16x56x56, .f32⟩ : BufTy).Contents (Elt F) → (⟨S_, .f32⟩ : BufTy).Contents (Elt F) → (⟨S4x8x16x56x56, .f32⟩ : BufTy).Contents (Elt F)) ]

/-- Operations 87 to 96: the sums at offset (2, 2). -/
def opsB8 : List (HloOp τ sig (Elt F)) :=
  [ unary main_v3 main_v76 ((extractStridedSlice S4x256x16x56x56 ![0, 0, 0, 2, 2] · slices_S4x256x16x58x58_S4x256x16x56x56_0_0_0_2_2) : (⟨S4x256x16x58x58, .f32⟩ : BufTy).Contents (Elt F) → (⟨S4x256x16x56x56, .f32⟩ : BufTy).Contents (Elt F)),
    unary main_arg1 main_v77 ((extractStridedSlice S256x16x1x1 ![0, 0, 2, 2] · slices_S256x16x3x3_S256x16x1x1_0_0_2_2) : (⟨S256x16x3x3, .f32⟩ : BufTy).Contents (Elt F) → (⟨S256x16x1x1, .f32⟩ : BufTy).Contents (Elt F)),
    reshape main_v77 main_v78 rfl shapeCasts_S256x16x1x1_S256x16,
    binary main_v2 main_v76 main_v79 (mulf : (⟨S4x256x16x56x56, .f32⟩ : BufTy).Contents (Elt F) → (⟨S4x256x16x56x56, .f32⟩ : BufTy).Contents (Elt F) → (⟨S4x256x16x56x56, .f32⟩ : BufTy).Contents (Elt F)),
    unary main_v78 main_v80 (broadcastInDim S1x256x16x1x1 ![1, 2] bcast_S256x16_S1x256x16x1x1_1_2 : (⟨S256x16, .f32⟩ : BufTy).Contents (Elt F) → (⟨S1x256x16x1x1, .f32⟩ : BufTy).Contents (Elt F)),
    unary main_v80 main_v81 (broadcastInDim S4x256x16x56x56 ![0, 1, 2, 3, 4] bcast_S1x256x16x1x1_S4x256x16x56x56_0_1_2_3_4 : (⟨S1x256x16x1x1, .f32⟩ : BufTy).Contents (Elt F) → (⟨S4x256x16x56x56, .f32⟩ : BufTy).Contents (Elt F)),
    binary main_v79 main_v81 main_v82 (mulf : (⟨S4x256x16x56x56, .f32⟩ : BufTy).Contents (Elt F) → (⟨S4x256x16x56x56, .f32⟩ : BufTy).Contents (Elt F) → (⟨S4x256x16x56x56, .f32⟩ : BufTy).Contents (Elt F)),
    reshape main_v82 main_v83 rfl shapeCasts_S4x256x16x56x56_S4x8x32x16x56x56,
    nullary main_cst_7 (constant S_ .f32 0x00000000#32),
    binary main_v83 main_cst_7 main_v84 ((fun x v => Host.reduceAdd x v reducesTo_S4x8x32x16x56x56_S4x8x16x56x56_d2 h_S_) : (⟨S4x8x32x16x56x56, .f32⟩ : BufTy).Contents (Elt F) → (⟨S_, .f32⟩ : BufTy).Contents (Elt F) → (⟨S4x8x16x56x56, .f32⟩ : BufTy).Contents (Elt F)) ]

/-- Operations 97 to 107: the nine sums stacked and flattened. -/
def opsC : List (HloOp τ sig (Elt F)) :=
  [ unary main_v12 main_v85 (broadcastInDim S4x8x1x16x56x56 ![0, 1, 3, 4, 5] bcast_S4x8x16x56x56_S4x8x1x16x56x56_0_1_3_4_5 : (⟨S4x8x16x56x56, .f32⟩ : BufTy).Contents (Elt F) → (⟨S4x8x1x16x56x56, .f32⟩ : BufTy).Contents (Elt F)),
    unary main_v21 main_v86 (broadcastInDim S4x8x1x16x56x56 ![0, 1, 3, 4, 5] bcast_S4x8x16x56x56_S4x8x1x16x56x56_0_1_3_4_5 : (⟨S4x8x16x56x56, .f32⟩ : BufTy).Contents (Elt F) → (⟨S4x8x1x16x56x56, .f32⟩ : BufTy).Contents (Elt F)),
    unary main_v30 main_v87 (broadcastInDim S4x8x1x16x56x56 ![0, 1, 3, 4, 5] bcast_S4x8x16x56x56_S4x8x1x16x56x56_0_1_3_4_5 : (⟨S4x8x16x56x56, .f32⟩ : BufTy).Contents (Elt F) → (⟨S4x8x1x16x56x56, .f32⟩ : BufTy).Contents (Elt F)),
    unary main_v39 main_v88 (broadcastInDim S4x8x1x16x56x56 ![0, 1, 3, 4, 5] bcast_S4x8x16x56x56_S4x8x1x16x56x56_0_1_3_4_5 : (⟨S4x8x16x56x56, .f32⟩ : BufTy).Contents (Elt F) → (⟨S4x8x1x16x56x56, .f32⟩ : BufTy).Contents (Elt F)),
    unary main_v48 main_v89 (broadcastInDim S4x8x1x16x56x56 ![0, 1, 3, 4, 5] bcast_S4x8x16x56x56_S4x8x1x16x56x56_0_1_3_4_5 : (⟨S4x8x16x56x56, .f32⟩ : BufTy).Contents (Elt F) → (⟨S4x8x1x16x56x56, .f32⟩ : BufTy).Contents (Elt F)),
    unary main_v57 main_v90 (broadcastInDim S4x8x1x16x56x56 ![0, 1, 3, 4, 5] bcast_S4x8x16x56x56_S4x8x1x16x56x56_0_1_3_4_5 : (⟨S4x8x16x56x56, .f32⟩ : BufTy).Contents (Elt F) → (⟨S4x8x1x16x56x56, .f32⟩ : BufTy).Contents (Elt F)),
    unary main_v66 main_v91 (broadcastInDim S4x8x1x16x56x56 ![0, 1, 3, 4, 5] bcast_S4x8x16x56x56_S4x8x1x16x56x56_0_1_3_4_5 : (⟨S4x8x16x56x56, .f32⟩ : BufTy).Contents (Elt F) → (⟨S4x8x1x16x56x56, .f32⟩ : BufTy).Contents (Elt F)),
    unary main_v75 main_v92 (broadcastInDim S4x8x1x16x56x56 ![0, 1, 3, 4, 5] bcast_S4x8x16x56x56_S4x8x1x16x56x56_0_1_3_4_5 : (⟨S4x8x16x56x56, .f32⟩ : BufTy).Contents (Elt F) → (⟨S4x8x1x16x56x56, .f32⟩ : BufTy).Contents (Elt F)),
    unary main_v84 main_v93 (broadcastInDim S4x8x1x16x56x56 ![0, 1, 3, 4, 5] bcast_S4x8x16x56x56_S4x8x1x16x56x56_0_1_3_4_5 : (⟨S4x8x16x56x56, .f32⟩ : BufTy).Contents (Elt F) → (⟨S4x8x1x16x56x56, .f32⟩ : BufTy).Contents (Elt F)),
    nary ![main_v85, main_v86, main_v87, main_v88, main_v89, main_v90, main_v91, main_v92, main_v93] main_v94 (fun u => concatenate S4x8x9x16x56x56 2 [⟨S4x8x1x16x56x56, u 0⟩, ⟨S4x8x1x16x56x56, u 1⟩, ⟨S4x8x1x16x56x56, u 2⟩, ⟨S4x8x1x16x56x56, u 3⟩, ⟨S4x8x1x16x56x56, u 4⟩, ⟨S4x8x1x16x56x56, u 5⟩, ⟨S4x8x1x16x56x56, u 6⟩, ⟨S4x8x1x16x56x56, u 7⟩, ⟨S4x8x1x16x56x56, u 8⟩] concatenates_S4x8x1x16x56x56_S4x8x1x16x56x56_S4x8x1x16x56x56_S4x8x1x16x56x56_S4x8x1x16x56x56_S4x8x1x16x56x56_S4x8x1x16x56x56_S4x8x1x16x56x56_S4x8x1x16x56x56_S4x8x9x16x56x56_d2),
    reshape main_v94 main_v95 rfl shapeCasts_S4x8x9x16x56x56_S4x72x16x56x56 ]

/-- @main's 107 operations, in order. -/
def ops : List (HloOp τ sig (Elt F)) :=
  opsA ++ (opsB0 ++ (opsB1 ++ (opsB2 ++ (opsB3 ++ (opsB4 ++ (opsB5 ++ (opsB6 ++ (opsB7 ++ (opsB8 ++ opsC)))))))))

set_option maxRecDepth 8192 in
set_option maxHeartbeats 4000000 in
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-! ## What the run asks of each operation, window by window -/

/-- The buffers each window's operations write. -/
abbrev opsA_W : List (Ref sig .tc) := [main_v0, main_v1, main_v2, main_c, main_call0_v0, main_v3]
abbrev opsB0_W : List (Ref sig .tc) := [main_v4, main_v5, main_v6, main_v7, main_v8, main_v9, main_v10, main_v11, main_cst, main_v12]
abbrev opsB1_W : List (Ref sig .tc) := [main_v13, main_v14, main_v15, main_v16, main_v17, main_v18, main_v19, main_v20, main_cst_0, main_v21]
abbrev opsB2_W : List (Ref sig .tc) := [main_v22, main_v23, main_v24, main_v25, main_v26, main_v27, main_v28, main_v29, main_cst_1, main_v30]
abbrev opsB3_W : List (Ref sig .tc) := [main_v31, main_v32, main_v33, main_v34, main_v35, main_v36, main_v37, main_v38, main_cst_2, main_v39]
abbrev opsB4_W : List (Ref sig .tc) := [main_v40, main_v41, main_v42, main_v43, main_v44, main_v45, main_v46, main_v47, main_cst_3, main_v48]
abbrev opsB5_W : List (Ref sig .tc) := [main_v49, main_v50, main_v51, main_v52, main_v53, main_v54, main_v55, main_v56, main_cst_4, main_v57]
abbrev opsB6_W : List (Ref sig .tc) := [main_v58, main_v59, main_v60, main_v61, main_v62, main_v63, main_v64, main_v65, main_cst_5, main_v66]
abbrev opsB7_W : List (Ref sig .tc) := [main_v67, main_v68, main_v69, main_v70, main_v71, main_v72, main_v73, main_v74, main_cst_6, main_v75]
abbrev opsB8_W : List (Ref sig .tc) := [main_v76, main_v77, main_v78, main_v79, main_v80, main_v81, main_v82, main_v83, main_cst_7, main_v84]
abbrev opsC_W : List (Ref sig .tc) := [main_v85, main_v86, main_v87, main_v88, main_v89, main_v90, main_v91, main_v92, main_v93, main_v94, main_v95]

/-- What the run asks of one operation: it touches TensorCore buffers only, it determines every buffer it writes,
    and the buffers it writes are among the references `W`. -/
structure OpOk (W : List (Ref sig .tc)) (op : HloOp τ sig (Elt F)) : Prop where
  bufs : op.bufs ⊆ tcRefs τ sig
  fresh : op.fresh = ∅
  writes : op.writes ⊆ (W.map (Proc.devRef (τ := τ) .tc)).toFinset

/-- `OpOk` over a literal window: per operation, the written reference found in the list, the builder's own fact
    for the buffers it touches, and computation for the undetermined ones (there are none). -/
local macro "ops_ok" : tactic =>
  `(tactic| (simp only [List.Forall]
             repeat' apply And.intro
             all_goals refine ⟨?_, rfl, ?_⟩
             all_goals first
               | (simp only [nullary_writes, unary_writes, binary_writes, reshape_writes, nary_writes,
                    Finset.singleton_subset_iff, List.mem_toFinset]
                  exact List.mem_map_of_mem (by decide))
               | simp only [nullary_bufs_sub, unary_bufs_sub, binary_bufs_sub, reshape_bufs_sub, nary_bufs_sub]))

theorem opsA_ok : (opsA : List (HloOp τ sig (Elt F))).Forall (OpOk opsA_W) := by unfold opsA; ops_ok
theorem opsB0_ok : (opsB0 : List (HloOp τ sig (Elt F))).Forall (OpOk opsB0_W) := by unfold opsB0; ops_ok
theorem opsB1_ok : (opsB1 : List (HloOp τ sig (Elt F))).Forall (OpOk opsB1_W) := by unfold opsB1; ops_ok
theorem opsB2_ok : (opsB2 : List (HloOp τ sig (Elt F))).Forall (OpOk opsB2_W) := by unfold opsB2; ops_ok
theorem opsB3_ok : (opsB3 : List (HloOp τ sig (Elt F))).Forall (OpOk opsB3_W) := by unfold opsB3; ops_ok
theorem opsB4_ok : (opsB4 : List (HloOp τ sig (Elt F))).Forall (OpOk opsB4_W) := by unfold opsB4; ops_ok
theorem opsB5_ok : (opsB5 : List (HloOp τ sig (Elt F))).Forall (OpOk opsB5_W) := by unfold opsB5; ops_ok
theorem opsB6_ok : (opsB6 : List (HloOp τ sig (Elt F))).Forall (OpOk opsB6_W) := by unfold opsB6; ops_ok
theorem opsB7_ok : (opsB7 : List (HloOp τ sig (Elt F))).Forall (OpOk opsB7_W) := by unfold opsB7; ops_ok
theorem opsB8_ok : (opsB8 : List (HloOp τ sig (Elt F))).Forall (OpOk opsB8_W) := by unfold opsB8; ops_ok
theorem opsC_ok : (opsC : List (HloOp τ sig (Elt F))).Forall (OpOk opsC_W) := by unfold opsC; ops_ok

/-- The two facts the run itself takes of every operation, from a window's `OpOk`. -/
theorem runFacts {W : List (Ref sig .tc)} {l : List (HloOp τ sig (Elt F))} (h : l.Forall (OpOk W)) :
    l.Forall fun op => op.bufs ⊆ tcRefs τ sig ∧ op.fresh = ∅ :=
  h.imp fun _ h => ⟨h.bufs, h.fresh⟩

theorem ops_run : (ops : List (HloOp τ sig (Elt F))).Forall fun op => op.bufs ⊆ tcRefs τ sig ∧ op.fresh = ∅ := by
  unfold ops
  exact List.forall_append.mpr ⟨runFacts opsA_ok, List.forall_append.mpr ⟨runFacts opsB0_ok, List.forall_append.mpr ⟨runFacts opsB1_ok,
    List.forall_append.mpr ⟨runFacts opsB2_ok, List.forall_append.mpr ⟨runFacts opsB3_ok, List.forall_append.mpr ⟨runFacts opsB4_ok,
    List.forall_append.mpr ⟨runFacts opsB5_ok, List.forall_append.mpr ⟨runFacts opsB6_ok, List.forall_append.mpr ⟨runFacts opsB7_ok,
    List.forall_append.mpr ⟨runFacts opsB8_ok, runFacts opsC_ok⟩⟩⟩⟩⟩⟩⟩⟩⟩⟩

/-- A reference outside the list a line's operations write within keeps its contents through the line. -/
theorem keep_of_ok {W : List (Ref sig .tc)} {l : List (HloOp τ sig (Elt F))} (h : l.Forall (OpOk W))
    (V : Valuation τ sig (Elt F)) (r : Ref sig .tc) (hr : r ∉ W) :
    after l V (no_index (Proc.devRef .tc r)) = V (Proc.devRef .tc r) :=
  after_of_writes_sub l V (h.imp fun _ h => h.writes) hr

/-! ## The windows' values -/

/-- What every window after the first reads of the first: the previous-frame input and the padded input at their
    stages of the launch's first argument, and the two arguments as launched. -/
structure In (V0 V : Valuation τ sig (Elt F)) : Prop where
  xprev : V (Proc.devRef .tc main_v2) = xprevS (V0 (Proc.devRef .tc main_arg0))
  padded : V (Proc.devRef .tc main_v3) = paddedS (V0 (Proc.devRef .tc main_arg0))
  arg0 : V (Proc.devRef .tc main_arg0) = V0 (Proc.devRef .tc main_arg0)
  arg1 : V (Proc.devRef .tc main_arg1) = V0 (Proc.devRef .tc main_arg1)

/-- A line that writes none of the four buffers keeps `In`. -/
theorem In.keep {V0 V : Valuation τ sig (Elt F)} (h : In V0 V) {W : List (Ref sig .tc)} {l : List (HloOp τ sig (Elt F))}
    (hl : l.Forall (OpOk W)) (hW : main_v2 ∉ W ∧ main_v3 ∉ W ∧ main_arg0 ∉ W ∧ main_arg1 ∉ W) : In V0 (after l V) where
  xprev := (keep_of_ok hl V main_v2 hW.1).trans h.xprev
  padded := (keep_of_ok hl V main_v3 hW.2.1).trans h.padded
  arg0 := (keep_of_ok hl V main_arg0 hW.2.2.1).trans h.arg0
  arg1 := (keep_of_ok hl V main_arg1 hW.2.2.2).trans h.arg1

set_option maxRecDepth 8192 in
/-- Window A establishes `In`. -/
theorem inA (V0 : Valuation τ sig (Elt F)) : In V0 (after opsA V0) where
  xprev := by
    unfold opsA
    after_results_simp
    rfl
  padded := by
    unfold opsA
    after_results_simp
    rfl
  arg0 := keep_of_ok opsA_ok V0 main_arg0 (by decide)
  arg1 := keep_of_ok opsA_ok V0 main_arg1 (by decide)

/-- The group sums at offset (a, b) of the stages that `In` names. -/
abbrev sumOf (a b : Nat) (hs : S4x256x16x58x58.Slices ![0, 0, 0, a, b] S4x256x16x56x56) (hw : S256x16x3x3.Slices ![0, 0, a, b] S256x16x1x1)
    (V0 : Valuation τ sig (Elt F)) : (⟨S4x8x16x56x56, .f32⟩ : BufTy).Contents (Elt F) :=
  sumS a b hs hw (xprevS (V0 (Proc.devRef .tc main_arg0))) (paddedS (V0 (Proc.devRef .tc main_arg0))) (V0 (Proc.devRef .tc main_arg1))

/-- Evaluates one stencil window at its sum buffer: its ten operations' results composed, the three buffers it
    reads of earlier windows at what `In` says, and what is left is `sumS` unfolded. -/
local macro "sum_window" h:ident : tactic =>
  `(tactic| (after_results_simp
             rw [In.xprev $h, In.padded $h, In.arg1 $h]
             rfl))

set_option maxRecDepth 8192 in
theorem sumB0 {V0 V : Valuation τ sig (Elt F)} (h : In V0 V) : after opsB0 V (Proc.devRef .tc main_v12)
    = sumOf 0 0 slices_S4x256x16x58x58_S4x256x16x56x56_0_0_0_0_0 slices_S256x16x3x3_S256x16x1x1_0_0_0_0 V0 := by
  unfold opsB0; sum_window h
set_option maxRecDepth 8192 in
theorem sumB1 {V0 V : Valuation τ sig (Elt F)} (h : In V0 V) : after opsB1 V (Proc.devRef .tc main_v21)
    = sumOf 0 1 slices_S4x256x16x58x58_S4x256x16x56x56_0_0_0_0_1 slices_S256x16x3x3_S256x16x1x1_0_0_0_1 V0 := by
  unfold opsB1; sum_window h
set_option maxRecDepth 8192 in
theorem sumB2 {V0 V : Valuation τ sig (Elt F)} (h : In V0 V) : after opsB2 V (Proc.devRef .tc main_v30)
    = sumOf 0 2 slices_S4x256x16x58x58_S4x256x16x56x56_0_0_0_0_2 slices_S256x16x3x3_S256x16x1x1_0_0_0_2 V0 := by
  unfold opsB2; sum_window h
set_option maxRecDepth 8192 in
theorem sumB3 {V0 V : Valuation τ sig (Elt F)} (h : In V0 V) : after opsB3 V (Proc.devRef .tc main_v39)
    = sumOf 1 0 slices_S4x256x16x58x58_S4x256x16x56x56_0_0_0_1_0 slices_S256x16x3x3_S256x16x1x1_0_0_1_0 V0 := by
  unfold opsB3; sum_window h
set_option maxRecDepth 8192 in
theorem sumB4 {V0 V : Valuation τ sig (Elt F)} (h : In V0 V) : after opsB4 V (Proc.devRef .tc main_v48)
    = sumOf 1 1 slices_S4x256x16x58x58_S4x256x16x56x56_0_0_0_1_1 slices_S256x16x3x3_S256x16x1x1_0_0_1_1 V0 := by
  unfold opsB4; sum_window h
set_option maxRecDepth 8192 in
theorem sumB5 {V0 V : Valuation τ sig (Elt F)} (h : In V0 V) : after opsB5 V (Proc.devRef .tc main_v57)
    = sumOf 1 2 slices_S4x256x16x58x58_S4x256x16x56x56_0_0_0_1_2 slices_S256x16x3x3_S256x16x1x1_0_0_1_2 V0 := by
  unfold opsB5; sum_window h
set_option maxRecDepth 8192 in
theorem sumB6 {V0 V : Valuation τ sig (Elt F)} (h : In V0 V) : after opsB6 V (Proc.devRef .tc main_v66)
    = sumOf 2 0 slices_S4x256x16x58x58_S4x256x16x56x56_0_0_0_2_0 slices_S256x16x3x3_S256x16x1x1_0_0_2_0 V0 := by
  unfold opsB6; sum_window h
set_option maxRecDepth 8192 in
theorem sumB7 {V0 V : Valuation τ sig (Elt F)} (h : In V0 V) : after opsB7 V (Proc.devRef .tc main_v75)
    = sumOf 2 1 slices_S4x256x16x58x58_S4x256x16x56x56_0_0_0_2_1 slices_S256x16x3x3_S256x16x1x1_0_0_2_1 V0 := by
  unfold opsB7; sum_window h
set_option maxRecDepth 8192 in
theorem sumB8 {V0 V : Valuation τ sig (Elt F)} (h : In V0 V) : after opsB8 V (Proc.devRef .tc main_v84)
    = sumOf 2 2 slices_S4x256x16x58x58_S4x256x16x56x56_0_0_0_2_2 slices_S256x16x3x3_S256x16x1x1_0_0_2_2 V0 := by
  unfold opsB8; sum_window h

set_option maxRecDepth 8192 in
/-- Window C, from any contents: the result buffer is `stackS` of the nine sum buffers. -/
theorem outC (V : Valuation τ sig (Elt F)) : after opsC V (Proc.devRef .tc main_v95)
    = stackS (V (Proc.devRef .tc main_v12)) (V (Proc.devRef .tc main_v21)) (V (Proc.devRef .tc main_v30))
        (V (Proc.devRef .tc main_v39)) (V (Proc.devRef .tc main_v48)) (V (Proc.devRef .tc main_v57))
        (V (Proc.devRef .tc main_v66)) (V (Proc.devRef .tc main_v75)) (V (Proc.devRef .tc main_v84)) := by
  unfold opsC
  after_results_simp
  try dsimp only [Matrix.cons_val]
  try after_results_simp
  rfl

/-! ## The whole line -/

/-- The contents after all 107 operations, at the three buffers the claim names. -/
theorem after_ops (V0 : Valuation τ sig (Elt F)) :
    after ops V0 (Proc.devRef .tc main_v95) = refVal (V0 (Proc.devRef .tc main_arg0)) (V0 (Proc.devRef .tc main_arg1))
      ∧ after ops V0 (Proc.devRef .tc main_arg0) = V0 (Proc.devRef .tc main_arg0)
      ∧ after ops V0 (Proc.devRef .tc main_arg1) = V0 (Proc.devRef .tc main_arg1) := by
  have hA := inA V0
  have h0 := hA.keep opsB0_ok (by decide)
  have h1 := h0.keep opsB1_ok (by decide)
  have h2 := h1.keep opsB2_ok (by decide)
  have h3 := h2.keep opsB3_ok (by decide)
  have h4 := h3.keep opsB4_ok (by decide)
  have h5 := h4.keep opsB5_ok (by decide)
  have h6 := h5.keep opsB6_ok (by decide)
  have h7 := h6.keep opsB7_ok (by decide)
  have h8 := h7.keep opsB8_ok (by decide)
  have hC := h8.keep opsC_ok (by decide)
  simp only [ops, after_append]
  refine ⟨?_, hC.arg0, hC.arg1⟩
  rw [outC]
  -- each sum buffer is written by its own window only: the windows after it fall away
  simp (disch := decide) only [keep_of_ok opsB1_ok, keep_of_ok opsB2_ok, keep_of_ok opsB3_ok, keep_of_ok opsB4_ok,
    keep_of_ok opsB5_ok, keep_of_ok opsB6_ok, keep_of_ok opsB7_ok, keep_of_ok opsB8_ok]
  rw [sumB0 hA, sumB1 h0, sumB2 h1, sumB3 h2, sumB4 h3, sumB5 h4, sumB6 h5, sumB7 h6, sumB8 h7]
  rfl

/-- On every device, for any float values, from any memory with zero counters: every weakly fair execution of
    @main terminates with the result buffer at `refVal` of the two arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v95) = refVal (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v95).trans (after_ops (launchContents m c)).1,
      (h c main_arg0).trans (after_ops (launchContents m c)).2.1,
      (h c main_arg1).trans (after_ops (launchContents m c)).2.2⟩)
    (run_seq scopedRefs_eq scopedSems_eq defs main (fun _ => ops) main_eq (fun _ => ops_run.imp fun _ h => h.1) m ρ
      (fun _ op hop => (List.forall_iff_forall_mem.mp ops_run op hop).2))

end Cert.ReferenceIdeal.Hand

end
-- ==== Proof.RefValue.lean ====
/-
  The reference's result read at an index, at the ideal instance (floats are extended reals, every operation exact,
  the host's float sum a plain sum).

  Stage by stage, at coordinates:
  * the previous-frame input at (n, c, t, h, v) is the input at (n, c, t − 1, h, v), with t − 1 truncated at 0: the
    joined axis' coordinate 0 falls in the first piece (frame 0), a coordinate t ≥ 1 in the second piece at t − 1;
  * the padded input is the padding of the input by one ring of the converted integer zero;
  * the group sum at stencil offset (a, b), read at (n, g, t, h, v), is the float zero plus the sum over j < 32 of
    previous-frame input at channel 32·g + j, times the padded input at the same channel and the pixel shifted by
    (a, b), times the weight at (32·g + j, t, a, b): the view of 256 channels as 8 × 32 sends (g, j) to 32·g + j
    because both sides have the same row-major position, the crop adds (a, b) to the pixel, and the two broadcasts
    and the small reshape read the weight's entry at (channel, time step) whatever the batch entry and the pixel;
  * the nine sums stacked on a new axis after the group axis and flattened: the element (n, g, k, t, h, v) of the
    stack is sum k at (n, g, t, h, v), and row-major flattening of the axes (g, k) of extents (8, 9) puts it at
    channel 9·g + k.
  With k = 3·kh + kw these give the group sum of the specification at every output index.
-/
import proofs.«150480_j19069654794413_1_alg».proof.Proof.RefStages
import proofs.«150480_j19069654794413_1_alg».proof.Proof.Spec
import Idealize.ShloMosaic.Lib.Pipeline.Value
import Idealize.ShloMosaic.Lib.ValueIdx
import Idealize.ShloMosaic.Lib.ValueIdxRank6
import Idealize.ShloMosaic.Lib.ValueLayout
import Idealize.ShloMosaic.PureOps.Ideal.Laws

noncomputable section

open scoped BigOperators

namespace Cert.ReferenceIdeal.Hand

open Cert.ReferenceIdeal Cert.ReferenceIdeal.Gen Cert.Spec Idealize.ShloMosaic Idealize.ShloMosaic.ValueIdx

/-! ## The previous-frame input -/

/-- Frame t of the previous-frame input is frame t − 1 of the input, frame 0 its own predecessor. -/
theorem xprevS_apply (x : (⟨S4x256x16x56x56, .f32⟩ : BufTy).Contents (Elt Ideal)) (n : Fin 4) (c : Fin 256) (t : Fin 16) (h v : Fin 56) :
    xprevS (F := Ideal) x (ix5 n c t h v) = x (ix5 n c (prevT t) h v) := by
  have htl := t.isLt
  unfold xprevS
  by_cases ht : t.val = 0
  · -- the joined coordinate 0 is in the first piece, the one-frame slice at offset 0
    refine (concatenate_pair_apply_left _ _ _ concatenates_S4x256x1x56x56_S4x256x15x56x56_S4x256x16x56x56_d2
      (ix5 n c t h v) rfl (ix5 n c (⟨0, Nat.one_pos⟩ : Fin 1) h v) (fun b => ?_)).trans ?_
    · match b with
      | ⟨0, _⟩ => rfl
      | ⟨1, _⟩ => rfl
      | ⟨2, _⟩ => show 0 = t.val; omega
      | ⟨3, _⟩ => rfl
      | ⟨4, _⟩ => rfl
    · refine extractStridedSlice_apply ![0, 0, 0, 0, 0] x slices_S4x256x16x56x56_S4x256x1x56x56_0_0_0_0_0 _
        (ix5 n c (prevT t) h v) (fun a => ?_)
      match a with
      | ⟨0, _⟩ => show n.val = 0 + n.val; omega
      | ⟨1, _⟩ => show c.val = 0 + c.val; omega
      | ⟨2, _⟩ => show t.val - 1 = 0 + 0; omega
      | ⟨3, _⟩ => show h.val = 0 + h.val; omega
      | ⟨4, _⟩ => show v.val = 0 + v.val; omega
  · -- a joined coordinate t ≥ 1 is in the second piece at t − 1, the fifteen-frame slice at offset 0
    refine (concatenate_pair_apply_right _ _ _ concatenates_S4x256x1x56x56_S4x256x15x56x56_S4x256x16x56x56_d2
      (ix5 n c t h v) rfl rfl (ix5 n c (⟨t.val - 1, by omega⟩ : Fin 15) h v) (fun b hb => ?_) ?_).trans ?_
    · match b, hb with
      | ⟨0, _⟩, _ => rfl
      | ⟨1, _⟩, _ => rfl
      | ⟨2, _⟩, hb => exact absurd rfl hb
      | ⟨3, _⟩, _ => rfl
      | ⟨4, _⟩, _ => rfl
    · show t.val - 1 + 1 = t.val; omega
    · refine extractStridedSlice_apply ![0, 0, 0, 0, 0] x slices_S4x256x16x56x56_S4x256x15x56x56_0_0_0_0_0 _
        (ix5 n c (prevT t) h v) (fun a => ?_)
      match a with
      | ⟨0, _⟩ => show n.val = 0 + n.val; omega
      | ⟨1, _⟩ => show c.val = 0 + c.val; omega
      | ⟨2, _⟩ => show t.val - 1 = 0 + (t.val - 1); omega
      | ⟨3, _⟩ => show h.val = 0 + h.val; omega
      | ⟨4, _⟩ => show v.val = 0 + v.val; omega

/-! ## The padded input -/

/-- The reference's padded input is the specification's: the same padding of the same input by the same value. -/
theorem paddedS_eq (x : (⟨S4x256x16x56x56, .f32⟩ : BufTy).Contents (Elt Ideal)) : paddedS (F := Ideal) x = padded x := rfl

/-! ## The group sums -/

/-- The weight's entry (a, b), reshaped to [256, 16] and broadcast over batch and pixels, read at (n, c, t, h, v):
    the weight at (c, t, a, b). -/
theorem wBcast_apply (kh kw : Fin 3) (hw : S256x16x3x3.Slices ![0, 0, kh.val, kw.val] S256x16x1x1)
    (w : (⟨S256x16x3x3, .f32⟩ : BufTy).Contents (Elt Ideal)) (n : Fin 4) (c : Fin 256) (t : Fin 16) (h v : Fin 56) :
    broadcastInDim S4x256x16x56x56 ![0, 1, 2, 3, 4] bcast_S1x256x16x1x1_S4x256x16x56x56_0_1_2_3_4
        (broadcastInDim S1x256x16x1x1 ![1, 2] bcast_S256x16_S1x256x16x1x1_1_2
          (shapeCast S256x16 (extractStridedSlice S256x16x1x1 ![0, 0, kh.val, kw.val] w hw) shapeCasts_S256x16x1x1_S256x16))
        (ix5 n c t h v)
      = w (ix4 c t kh kw) := by
  have hc := c.isLt; have ht := t.isLt
  -- the large broadcast keeps channel and time step and reads the unit axes at 0
  refine (broadcastInDim_apply _ bcast_S1x256x16x1x1_S4x256x16x56x56_0_1_2_3_4 _ (ix5 n c t h v)
    (ix5 (⟨0, Nat.one_pos⟩ : Fin 1) c t (⟨0, Nat.one_pos⟩ : Fin 1) (⟨0, Nat.one_pos⟩ : Fin 1)) (fun a => ?_)).trans ?_
  · match a with
    | ⟨0, _⟩ => show 0 = if (1 : Nat) = 1 then 0 else n.val; rw [if_pos rfl]
    | ⟨1, _⟩ => show c.val = if (256 : Nat) = 1 then 0 else c.val; rw [if_neg (by decide)]
    | ⟨2, _⟩ => show t.val = if (16 : Nat) = 1 then 0 else t.val; rw [if_neg (by decide)]
    | ⟨3, _⟩ => show 0 = if (1 : Nat) = 1 then 0 else h.val; rw [if_pos rfl]
    | ⟨4, _⟩ => show 0 = if (1 : Nat) = 1 then 0 else v.val; rw [if_pos rfl]
  -- the small broadcast reads (channel, time step)
  refine (broadcastInDim_apply _ bcast_S256x16_S1x256x16x1x1_1_2 _ _ (ix2 c t) (fun a => ?_)).trans ?_
  · match a with
    | ⟨0, _⟩ => show c.val = if (256 : Nat) = 1 then 0 else c.val; rw [if_neg (by decide)]
    | ⟨1, _⟩ => show t.val = if (16 : Nat) = 1 then 0 else t.val; rw [if_neg (by decide)]
  -- the reshape [256, 16, 1, 1] → [256, 16] keeps the row-major position
  refine (shapeCast_apply _ shapeCasts_S256x16x1x1_S256x16 (ix2 c t)
    (ix4 c t (⟨0, Nat.one_pos⟩ : Fin 1) (⟨0, Nat.one_pos⟩ : Fin 1)) ?_).trans ?_
  · rewrite [Shape.rowMajor_val_four, Shape.rowMajor_val_two]
    show ((c.val * 16 + t.val) * 1 + 0) * 1 + 0 = c.val * 16 + t.val
    omega
  -- the slice at offset (0, 0, a, b)
  refine extractStridedSlice_apply ![0, 0, kh.val, kw.val] w hw _ (ix4 c t kh kw) (fun a => ?_)
  match a with
  | ⟨0, _⟩ => show c.val = 0 + c.val; omega
  | ⟨1, _⟩ => show t.val = 0 + t.val; omega
  | ⟨2, _⟩ => show kh.val = kh.val + 0; omega
  | ⟨3, _⟩ => show kw.val = kw.val + 0; omega

/-- The group sum at stencil offset (a, b) read at (n, g, t, h, v): the float zero plus the 32 products of the group's
    channels. -/
theorem sumS_apply (a b : Nat) (hs : S4x256x16x58x58.Slices ![0, 0, 0, a, b] S4x256x16x56x56) (hw : S256x16x3x3.Slices ![0, 0, a, b] S256x16x1x1)
    (xp : (⟨S4x256x16x56x56, .f32⟩ : BufTy).Contents (Elt Ideal)) (P : (⟨S4x256x16x58x58, .f32⟩ : BufTy).Contents (Elt Ideal))
    (w : (⟨S256x16x3x3, .f32⟩ : BufTy).Contents (Elt Ideal))
    (n : Fin 4) (g : Fin 8) (kh kw : Fin 3) (ha : kh.val = a) (hb : kw.val = b) (t : Fin 16) (h v : Fin 56) :
    sumS (F := Ideal) a b hs hw xp P w (ix5 n g t h v)
      = Ideal.ofBits .f32 0x00000000#32
        + ∑ j : Fin 32, (xp (ix5 n (chan g j) t h v) * P (ix5 n (chan g j) t (shift h kh) (shift v kw))) * w (ix4 (chan g j) t kh kw) := by
  subst ha hb
  unfold sumS
  simp only [Host.reduceAdd, Ideal.hostReduceAdd_def]
  rw [Ideal.hostReduceAdd_single reducesTo_S4x8x32x16x56x56_S4x8x16x56x56_d2 (by decide)]
  refine congrArg₂ (· + ·) rfl (Finset.sum_congr rfl fun j _ => ?_)
  have hn := n.isLt; have hg := g.isLt; have hj := j.isLt; have ht := t.isLt; have hh := h.isLt; have hv := v.isLt
  -- the view [4, 256, …] → [4, 8, 32, …]: (g, j) is channel 32·g + j, the two row-major positions being equal
  refine (shapeCast_apply _ shapeCasts_S4x256x16x56x56_S4x8x32x16x56x56 _ (ix5 n (chan g j) t h v) ?_).trans ?_
  · rewrite [Shape.rowMajor_val_five, Shape.rowMajor_val_six]
    show (((n.val * 256 + (32 * g.val + j.val)) * 16 + t.val) * 56 + h.val) * 56 + v.val
      = ((((n.val * 8 + g.val) * 32 + j.val) * 16 + t.val) * 56 + h.val) * 56 + v.val
    omega
  rw [mulf_apply, mulf_apply]
  refine congrArg₂ (· * ·) (congrArg₂ (· * ·) rfl ?_) (wBcast_apply kh kw hw w n (chan g j) t h v)
  -- the crop of the padded input at offset (a, b)
  refine extractStridedSlice_apply ![0, 0, 0, kh.val, kw.val] P hs _ (ix5 n (chan g j) t (shift h kh) (shift v kw)) (fun a => ?_)
  match a with
  | ⟨0, _⟩ => show n.val = 0 + n.val; omega
  | ⟨1, _⟩ => show 32 * g.val + j.val = 0 + (32 * g.val + j.val); omega
  | ⟨2, _⟩ => show t.val = 0 + t.val; omega
  | ⟨3, _⟩ => show h.val + kh.val = kh.val + h.val; omega
  | ⟨4, _⟩ => show v.val + kw.val = kw.val + v.val; omega

/-! ## The stack of the nine sums, flattened -/

/-- A sum broadcast to a unit axis after the group axis, read at (n, g, 0, t, h, v): the sum at (n, g, t, h, v). -/
theorem unitBcast_apply (s : (⟨S4x8x16x56x56, .f32⟩ : BufTy).Contents (Elt Ideal)) (n : Fin 4) (g : Fin 8) (t : Fin 16) (h v : Fin 56) :
    broadcastInDim S4x8x1x16x56x56 ![0, 1, 3, 4, 5] bcast_S4x8x16x56x56_S4x8x1x16x56x56_0_1_3_4_5 s
        (ix6 n g (⟨0, Nat.one_pos⟩ : Fin 1) t h v)
      = s (ix5 n g t h v) := by
  refine broadcastInDim_apply _ bcast_S4x8x16x56x56_S4x8x1x16x56x56_0_1_3_4_5 s _ (ix5 n g t h v) (fun a => ?_)
  match a with
  | ⟨0, _⟩ => show n.val = if (4 : Nat) = 1 then 0 else n.val; rw [if_neg (by decide)]
  | ⟨1, _⟩ => show g.val = if (8 : Nat) = 1 then 0 else g.val; rw [if_neg (by decide)]
  | ⟨2, _⟩ => show t.val = if (16 : Nat) = 1 then 0 else t.val; rw [if_neg (by decide)]
  | ⟨3, _⟩ => show h.val = if (56 : Nat) = 1 then 0 else h.val; rw [if_neg (by decide)]
  | ⟨4, _⟩ => show v.val = if (56 : Nat) = 1 then 0 else v.val; rw [if_neg (by decide)]

/-- A join of unit-extent pieces along the axis after the group axis, read at (n, g, k, t, h, v) where piece k is
    preceded by extents summing to k: piece k at (n, g, 0, t, h, v). -/
theorem unitPiece_apply {α : Type} (xs : List ((s : Shape) × (s.Idx → α)))
    (hc : Shape.Concatenates (xs.map (·.1)) S4x8x9x16x56x56 2) (K : Nat) (hK : K < xs.length)
    (y : S4x8x1x16x56x56.Idx → α) (hxk : xs[K] = ⟨S4x8x1x16x56x56, y⟩)
    (hpre : (((xs.take K).map (·.1)).map fun s =>
      if h : s.rank = S4x8x9x16x56x56.rank then s.size ((2 : Fin S4x8x9x16x56x56.rank).cast h.symm) else 0).sum = K)
    (n : Fin 4) (g : Fin 8) (k : Fin 9) (hk : k.val = K) (t : Fin 16) (h v : Fin 56) :
    concatenate S4x8x9x16x56x56 2 xs hc (ix6 n g k t h v) = y (ix6 n g (⟨0, Nat.one_pos⟩ : Fin 1) t h v) := by
  refine concatenate_apply_piece 2 xs hc (ix6 n g k t h v) K hK S4x8x1x16x56x56 y hxk rfl K hpre
    (ix6 n g (⟨0, Nat.one_pos⟩ : Fin 1) t h v) (fun b hb => ?_) ?_
  · match b, hb with
    | ⟨0, _⟩, _ => rfl
    | ⟨1, _⟩, _ => rfl
    | ⟨2, _⟩, hb => exact absurd rfl hb
    | ⟨3, _⟩, _ => rfl
    | ⟨4, _⟩, _ => rfl
    | ⟨5, _⟩, _ => rfl
  · show K + 0 = k.val; omega

/-- The stacked and flattened sums at channel 9·g + k: sum k's group g. -/
theorem stackS_apply (s0 s1 s2 s3 s4 s5 s6 s7 s8 : (⟨S4x8x16x56x56, .f32⟩ : BufTy).Contents (Elt Ideal))
    (n : Fin 4) (g : Fin 8) (k : Fin 9) (c : Fin 72) (hck : c.val = 9 * g.val + k.val) (t : Fin 16) (h v : Fin 56) :
    stackS (F := Ideal) s0 s1 s2 s3 s4 s5 s6 s7 s8 (ix5 n c t h v) = (![s0, s1, s2, s3, s4, s5, s6, s7, s8] k) (ix5 n g t h v) := by
  have hn := n.isLt; have hg := g.isLt; have hk := k.isLt; have ht := t.isLt; have hh := h.isLt; have hv := v.isLt
  unfold stackS
  -- flattening (g, k) of extents (8, 9) into 72 channels keeps the row-major position: channel 9·g + k
  refine (shapeCast_apply _ shapeCasts_S4x8x9x16x56x56_S4x72x16x56x56 (ix5 n c t h v) (ix6 n g k t h v) ?_).trans ?_
  · rewrite [Shape.rowMajor_val_six, Shape.rowMajor_val_five]
    show ((((n.val * 8 + g.val) * 9 + k.val) * 16 + t.val) * 56 + h.val) * 56 + v.val
      = (((n.val * 72 + c.val) * 16 + t.val) * 56 + h.val) * 56 + v.val
    omega
  -- the element k of the stack axis is the k-th piece, a broadcast of sum k
  match k with
  | ⟨0, _⟩ => exact (unitPiece_apply _ _ 0 (by show (0 : Nat) < 9; omega) _ rfl rfl n g _ rfl t h v).trans (unitBcast_apply s0 n g t h v)
  | ⟨1, _⟩ => exact (unitPiece_apply _ _ 1 (by show (1 : Nat) < 9; omega) _ rfl rfl n g _ rfl t h v).trans (unitBcast_apply s1 n g t h v)
  | ⟨2, _⟩ => exact (unitPiece_apply _ _ 2 (by show (2 : Nat) < 9; omega) _ rfl rfl n g _ rfl t h v).trans (unitBcast_apply s2 n g t h v)
  | ⟨3, _⟩ => exact (unitPiece_apply _ _ 3 (by show (3 : Nat) < 9; omega) _ rfl rfl n g _ rfl t h v).trans (unitBcast_apply s3 n g t h v)
  | ⟨4, _⟩ => exact (unitPiece_apply _ _ 4 (by show (4 : Nat) < 9; omega) _ rfl rfl n g _ rfl t h v).trans (unitBcast_apply s4 n g t h v)
  | ⟨5, _⟩ => exact (unitPiece_apply _ _ 5 (by show (5 : Nat) < 9; omega) _ rfl rfl n g _ rfl t h v).trans (unitBcast_apply s5 n g t h v)
  | ⟨6, _⟩ => exact (unitPiece_apply _ _ 6 (by show (6 : Nat) < 9; omega) _ rfl rfl n g _ rfl t h v).trans (unitBcast_apply s6 n g t h v)
  | ⟨7, _⟩ => exact (unitPiece_apply _ _ 7 (by show (7 : Nat) < 9; omega) _ rfl rfl n g _ rfl t h v).trans (unitBcast_apply s7 n g t h v)
  | ⟨8, _⟩ => exact (unitPiece_apply _ _ 8 (by show (8 : Nat) < 9; omega) _ rfl rfl n g _ rfl t h v).trans (unitBcast_apply s8 n g t h v)

/-! ## The whole result -/

/-- One of the reference's nine sums, over the previous-frame and the padded input, is the specification's group sum
    at its stencil offset. -/
theorem sumS_eq_Gsum (a b : Nat) (hs : S4x256x16x58x58.Slices ![0, 0, 0, a, b] S4x256x16x56x56) (hw : S256x16x3x3.Slices ![0, 0, a, b] S256x16x1x1)
    (x : (⟨S4x256x16x56x56, .f32⟩ : BufTy).Contents (Elt Ideal)) (w : (⟨S256x16x3x3, .f32⟩ : BufTy).Contents (Elt Ideal))
    (n : Fin 4) (g : Fin 8) (kh kw : Fin 3) (ha : kh.val = a) (hb : kw.val = b) (t : Fin 16) (h v : Fin 56) :
    sumS (F := Ideal) a b hs hw (xprevS x) (paddedS x) w (ix5 n g t h v) = Gsum x (padded x) w n g kh kw t h v := by
  rw [sumS_apply a b hs hw _ _ w n g kh kw ha hb t h v, paddedS_eq]
  unfold Gsum
  refine congrArg₂ (· + ·) rfl (Finset.sum_congr rfl fun j _ => ?_)
  rw [xprevS_apply]

/-- The reference's result at the output channel of group g and stencil offset (kh, kw) is the group sum there. -/
theorem refVal_apply (x : (⟨S4x256x16x56x56, .f32⟩ : BufTy).Contents (Elt Ideal)) (w : (⟨S256x16x3x3, .f32⟩ : BufTy).Contents (Elt Ideal))
    (n : Fin 4) (g : Fin 8) (kh kw : Fin 3) (t : Fin 16) (h v : Fin 56) :
    refVal (F := Ideal) x w (ix5 n (outChan g kh kw) t h v) = Gsum x (padded x) w n g kh kw t h v := by
  unfold refVal
  rw [stackS_apply _ _ _ _ _ _ _ _ _ n g ⟨3 * kh.val + kw.val, by have := kh.isLt; have := kw.isLt; omega⟩ (outChan g kh kw) rfl t h v]
  match kh, kw with
  | ⟨0, _⟩, ⟨0, _⟩ => exact sumS_eq_Gsum 0 0 _ _ x w n g _ _ rfl rfl t h v
  | ⟨0, _⟩, ⟨1, _⟩ => exact sumS_eq_Gsum 0 1 _ _ x w n g _ _ rfl rfl t h v
  | ⟨0, _⟩, ⟨2, _⟩ => exact sumS_eq_Gsum 0 2 _ _ x w n g _ _ rfl rfl t h v
  | ⟨1, _⟩, ⟨0, _⟩ => exact sumS_eq_Gsum 1 0 _ _ x w n g _ _ rfl rfl t h v
  | ⟨1, _⟩, ⟨1, _⟩ => exact sumS_eq_Gsum 1 1 _ _ x w n g _ _ rfl rfl t h v
  | ⟨1, _⟩, ⟨2, _⟩ => exact sumS_eq_Gsum 1 2 _ _ x w n g _ _ rfl rfl t h v
  | ⟨2, _⟩, ⟨0, _⟩ => exact sumS_eq_Gsum 2 0 _ _ x w n g _ _ rfl rfl t h v
  | ⟨2, _⟩, ⟨1, _⟩ => exact sumS_eq_Gsum 2 1 _ _ x w n g _ _ rfl rfl t h v
  | ⟨2, _⟩, ⟨2, _⟩ => exact sumS_eq_Gsum 2 2 _ _ x w n g _ _ rfl rfl t h v

/-- The reference's result is the specification's array of group sums. -/
theorem refVal_eq (x : (⟨S4x256x16x56x56, .f32⟩ : BufTy).Contents (Elt Ideal)) (w : (⟨S256x16x3x3, .f32⟩ : BufTy).Contents (Elt Ideal)) :
    refVal (F := Ideal) x w = Gfun x (padded x) w := by
  funext i
  obtain ⟨n, ch, t, h, v, rfl⟩ : ∃ (n : Fin 4) (ch : Fin 72) (t : Fin 16) (h v : Fin 56), i = ix5 n ch t h v :=
    ⟨i 0, i 1, i 2, i 3, i 4, eq_ix5 i⟩
  obtain ⟨g, kh, kw, rfl⟩ := exists_outChan ch
  rw [refVal_apply, Gfun_apply]

end Cert.ReferenceIdeal.Hand

end
-- ==== Proof.lean ====
/-
  Grouped shifted products over a 3 × 3 stencil: for every batch entry n, group g of 32 consecutive channels,
  stencil offset (kh, kw), time step t and pixel (h, v), the result at channel 9·g + 3·kh + kw is

      Σ over the group's channels c of  (x[n, c, t − 1, h, v] · x̃[n, c, t, h + kh, v + kw]) · w[c, t, kh, kw],

  x̃ the input with one ring of zeros around each frame (so the second factor is the input at the pixel shifted by
  (kh − 1, kw − 1), zero outside the frame) and t − 1 truncated at 0.

  The kernel computes it one (n, t) at a time from two blocks of x̃ — the frame t and the frame max (t − 1) 0,
  whose centre crop is the unpadded previous frame — and the weight's slice at t; the reference computes it on
  whole arrays. Both add the same 32 products, each associated the same way, starting from the float zero, so
  over the extended reals the two results are equal entry by entry with no appeal to finiteness.

  The kernel's two windows on x̃ read ONE array; its frame is proved over the launch rule for windows that share
  an array, each of the two holding half of the array's points-to. The reference's run is evaluated window by
  window over named stages. Here: the five claims from those parts.
-/
import proofs.«150480_j19069654794413_1_alg».proof.Defs
import proofs.«150480_j19069654794413_1_alg».proof.Proof.Gen.Kernel
import proofs.«150480_j19069654794413_1_alg».proof.Proof.Gen.KernelIdeal
import proofs.«150480_j19069654794413_1_alg».proof.Proof.Gen.ReferenceIdeal
import proofs.«150480_j19069654794413_1_alg».proof.Proof.Gen.Pre_finite_inputs
import proofs.«150480_j19069654794413_1_alg».proof.Proof.KFrame
import proofs.«150480_j19069654794413_1_alg».proof.Proof.KIValue
import proofs.«150480_j19069654794413_1_alg».proof.Proof.RefRun
import proofs.«150480_j19069654794413_1_alg».proof.Proof.RefValue
import Idealize.ShloMosaic.Adequacy
import Idealize.ShloMosaic.Init

noncomputable section

namespace Cert.Proof

open Idealize.ShloMosaic Idealize.SL.Sem Cert.Spec

/-- The word-level kernel runs and leaves its arguments unchanged. -/
theorem frame_kernel : Cert.frame_Kernel := fun m ρ _ => Cert.Kernel.Hand.frame m ρ

/-- So does the idealized kernel. -/
theorem frame_kernelIdeal : Cert.frame_KernelIdeal := fun m ρ _ => Cert.KernelIdeal.Hand.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Hand.run (F := Ideal) m ρ)

/-- The ideal pass rewrote nothing: the idealization is the program's own text read at the ideal instance. -/
theorem preserves : Cert.preserves_Kernel_KernelIdeal := trivial

/-- From memories that agree on the arguments both programs end with the result array at the group sums of the
    arguments: the kernel's by its blocks, point by point; the reference's by its stages. -/
theorem algebraic : Cert.algebraic_KernelIdeal_ReferenceIdeal := by
  intro m ρ m' ρ' _ hagree
  refine ⟨_, Cert.KernelIdeal.Hand.run_value m ρ, ?_⟩
  refine (θ_run Cert.ReferenceIdeal.defs _ _).mono (fun _ h c => ⟨(h c).1.trans ?_, (h c).2⟩)
    (Cert.ReferenceIdeal.Hand.run (F := Ideal) m' ρ')
  rw [(hagree c).1, (hagree c).2]
  exact Cert.ReferenceIdeal.Hand.refVal_eq _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
